-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S257x128 : S_.BroadcastsInDim S257x128 (![] : Fin 0 → Fin S257x128.rank)
  reducesTo_S257x128_S_d0_1 : S257x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S257x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S257x128 .f32 := Host.absf main_arg8
  let main_cst_12 : FVec F S_ .f32 := constant S_ .f32 0x7F800000#32
  let main_v35 : FVec F S257x128 .f32 := broadcastInDim S257x128 ![] bcast_S_S257x128 main_cst_12
  let main_v36 : IVec S257x128 1 := cmpf .olt main_v34 main_v35
  let main_c_13 : IVec S_ 1 := constantI S_ 1 1#1
  let main_v37 : IVec S_ 1 := (fun x v => Host.reduce IntOp.andi x v reducesTo_S257x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S129x128 1) : IVec S_ 1 :=
  let main_c_5 : IVec S_ 1 := constantI S_ 1 1#1
  let main_v17 : IVec S_ 1 := (fun x v => Host.reduce IntOp.andi x v reducesTo_S129x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000 .f32) (main_arg2 : FVec F S50000 .f32) (main_arg3 : IVec S2x800000 32) (main_arg4 : FVec F S129x128 .f32) (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S129x128 .f32 := Host.absf main_arg4
  let main_cst_4 : FVec F S_ .f32 := constant S_ .f32 0x7F800000#32
  let main_v15 : FVec F S129x128 .f32 := broadcastInDim S129x128 ![] bcast_S_S129x128 main_cst_4
  let main_v16 : IVec S129x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S50000x1 : Shape := ⟨2, ![50000, 1]⟩
abbrev S50000x129 : Shape := ⟨2, ![50000, 129]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x129 : Shape := ⟨2, ![800000, 129]⟩
abbrev S1x128 : Shape := ⟨2, ![1, 128]⟩
abbrev S1x1 : Shape := ⟨2, ![1, 1]⟩
abbrev S2000x129 : Shape := ⟨2, ![2000, 129]⟩
abbrev S2000x1 : Shape := ⟨2, ![2000, 1]⟩
abbrev S2000x128 : Shape := ⟨2, ![2000, 128]⟩
abbrev S2000x257 : Shape := ⟨2, ![2000, 257]⟩

abbrev nBuf : Space → Nat
  | .hbm => 41
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S50000, .f32⟩
  | .hbm, ⟨3, _⟩ => ⟨S2x800000, .i32⟩
  | .hbm, ⟨4, _⟩ => ⟨S129x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S50000x1, .f32⟩
  | .hbm, ⟨15, _⟩ => ⟨S50000x129, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x129, .f32⟩
  | .hbm, ⟨29, _⟩ => ⟨S_, .f32⟩
  | .hbm, ⟨30, _⟩ => ⟨S50000x129, .f32⟩
  | .hbm, ⟨31, _⟩ => ⟨S800000x1, .i32⟩
  | .hbm, ⟨32, _⟩ => ⟨S50000x129, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x1, .f32⟩
  | .hbm, ⟨38, _⟩ => ⟨S50000x1, .f32⟩
  | .hbm, ⟨39, _⟩ => ⟨S_, .f32⟩
  | .hbm, ⟨40, _⟩ => ⟨S50000x1, .f32⟩
  | .local _ .vmem, ⟨0, _⟩ => ⟨S2000x129, .f32⟩
  | .local _ .vmem, ⟨1, _⟩ => ⟨S2000x129, .f32⟩
  | .local _ .vmem, ⟨2, _⟩ => ⟨S2000x129, .f32⟩
  | .local _ .vmem, ⟨3, _⟩ => ⟨S2000x129, .f32⟩
  | .local _ .vmem, ⟨4, _⟩ => ⟨S129x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S257x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S2000x1, .f32⟩
  | .local _ .vmem, ⟨15, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S257x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S50000_S50000x1_0 : S50000.BroadcastsInDim S50000x1 (![0] : Fin 1 → Fin S50000x1.rank)
  concatenates_S50000x128_S50000x1_S50000x129_d1 : Shape.Concatenates [S50000x128, S50000x1] S50000x129 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x129 : S_.BroadcastsInDim S50000x129 (![] : Fin 0 → Fin S50000x129.rank)
  shapeCasts_S128_S1x128 : S128.ShapeCasts S1x128
  shapeCasts_S1_S1x1 : S1.ShapeCasts S1x1
  inb_S2000x129_S2000x129_0_0 : ∀ a, (![0, 0] : Fin 2 → Nat) a + S2000x129.size a ≤ S2000x129.size a
  h_S2000x129 : 0 < S2000x129.numel
  shapeCasts_S2000x129_S2000x129 : S2000x129.ShapeCasts S2000x129
  bitsLt_bf16_f32 : FTy.bits .bf16 < FTy.bits .f32
  inb_S129x128_S129x128_0_0 : ∀ a, (![0, 0] : Fin 2 → Nat) a + S129x128.size a ≤ S129x128.size a
  h_S129x128 : 0 < S129x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  concatenates_S2000x128_S2000x129_S2000x257_d1 : Shape.Concatenates [S2000x128, S2000x129] S2000x257 1
  inb_S257x128_S257x128_0_0 : ∀ a, (![0, 0] : Fin 2 → Nat) a + S257x128.size a ≤ S257x128.size a
  h_S257x128 : 0 < S257x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S2000x129_S129x128_S2000x128_1_0_0_1_n_n_wf : DotDims.WF S2000x129 S129x128 S2000x128 [1] [0] [0] [1] [] []
  dot_S2000x128_S128x128_S2000x128_1_0_0_1_n_n_wf : DotDims.WF S2000x128 S128x128 S2000x128 [1] [0] [0] [1] [] []
  dot_S2000x257_S257x128_S2000x128_1_0_0_1_n_n_wf : DotDims.WF S2000x257 S257x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x129.size a ≤ S50000x129.size a
  hwx0_0 : ∀ i : grid0.Coords, EltTy.bits .f32 = 32 ∨ (Rect.block (s := S50000x129) S2000x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x129.size a ≤ S50000x129.size a
  hwx0_1 : ∀ i : grid0.Coords, EltTy.bits .f32 = 32 ∨ (Rect.block (s := S50000x129) S2000x129.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x128.size a ≤ S129x128.size a
  hwx0_2 : ∀ i : grid0.Coords, EltTy.bits .f32 = 32 ∨ (Rect.block (s := S129x128) S129x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S257x128.size a ≤ S257x128.size a
  hwx0_6 : ∀ i : grid0.Coords, EltTy.bits .f32 = 32 ∨ (Rect.block (s := S257x128) S257x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S50000x1.size a
  hwx0_12 : ∀ i : grid0.Coords, EltTy.bits .f32 = 32 ∨ (Rect.block (s := S50000x1) S2000x1.size (cc0_transform_12 i) (hinb0_12 i)).WholeWords (EltTy.packing .f32)

variable [Facts₀]

def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S2000x129_S129x128_S2000x128_1_0_0_1_n_n : DotDims S2000x129 S129x128 S2000x128 where
  lhsContracting := [1]
  rhsContracting := [0]
  lhsNonContracting := [0]
  rhsNonContracting := [1]
  lhsBatch := []
  rhsBatch := []
  wf := dot_S2000x129_S129x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x257_S257x128_S2000x128_1_0_0_1_n_n : DotDims S2000x257 S257x128 S2000x128 where
  lhsContracting := [1]
  rhsContracting := [0]
  lhsNonContracting := [0]
  rhsNonContracting := [1]
  lhsBatch := []
  rhsBatch := []
  wf := dot_S2000x257_S257x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v1) S2000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x129.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S129x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S257x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S2000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000 : Shape := ⟨1, ![50000]⟩
abbrev S2x800000 : Shape := ⟨2, ![2, 800000]⟩
abbrev S129x128 : Shape := ⟨2, ![129, 128]⟩
abbrev S128 : Shape := ⟨1, ![128]⟩
abbrev S128x128 : Shape := ⟨2, ![128, 128]⟩
abbrev S257x128 : Shape := ⟨2, ![257, 128]⟩
abbrev S128x1 : Shape := ⟨2, ![128, 1]⟩
abbrev S1 : Shape := ⟨1, ![1]⟩
abbrev S50000x1 : Shape := ⟨2, ![50000, 1]⟩
abbrev S50000x129 : Shape := ⟨2, ![50000, 129]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x129 : Shape := ⟨2, ![800000, 129]⟩
abbrev S1x128 : Shape := ⟨2, ![1, 128]⟩
abbrev S50000x257 : Shape := ⟨2, ![50000, 257]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S50000, .f32⟩
  | .hbm, ⟨3, _⟩ => ⟨S2x800000, .i32⟩
  | .hbm, ⟨4, _⟩ => ⟨S129x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S50000x1, .f32⟩
  | .hbm, ⟨15, _⟩ => ⟨S50000x129, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x129, .f32⟩
  | .hbm, ⟨29, _⟩ => ⟨S_, .f32⟩
  | .hbm, ⟨30, _⟩ => ⟨S50000x129, .f32⟩
  | .hbm, ⟨31, _⟩ => ⟨S800000x1, .i32⟩
  | .hbm, ⟨32, _⟩ => ⟨S50000x129, .f32⟩
  | .hbm, ⟨33, _⟩ => ⟨S50000x129, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x257, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .i1⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S_, .f32⟩
  | .hbm, ⟨68, _⟩ => ⟨S50000x128, .f32⟩
  | .hbm, ⟨69, _⟩ => ⟨S50000x128, .i1⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x1, .f32⟩
  | .hbm, ⟨75, _⟩ => ⟨S1x1, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  concatenates_S50000x128_S50000x1_S50000x129_d1 : Shape.Concatenates [S50000x128, S50000x1] S50000x129 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x129 : S_.BroadcastsInDim S50000x129 (![] : Fin 0 → Fin S50000x129.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S50000x128_S50000x129_S50000x257_d1 : Shape.Concatenates [S50000x128, S50000x129] S50000x257 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x129_S800000x1_S800000x129_1_0_n_n_0_1_1129_wf : GatherDims.WF S50000x129 S800000x1 S800000x129 [1] [0] [] [0] [] 1 ![1, 129]
  scatter_S50000x129_S800000x1_S800000x129_1_0_0_1_wf : ScatterDims.WF S50000x129 S800000x1 S800000x129 [1] [0] [0] 1
  dot_S50000x129_S129x128_S50000x128_1_0_0_1_n_n_wf : DotDims.WF S50000x129 S129x128 S50000x128 [1] [0] [0] [1] [] []
  dot_S50000x128_S128x128_S50000x128_1_0_0_1_n_n_wf : DotDims.WF S50000x128 S128x128 S50000x128 [1] [0] [0] [1] [] []
  dot_S50000x257_S257x128_S50000x128_1_0_0_1_n_n_wf : DotDims.WF S50000x257 S257x128 S50000x128 [1] [0] [0] [1] [] []
  dot_S50000x128_S128x1_S50000x1_1_0_0_1_n_n_wf : DotDims.WF S50000x128 S128x1 S50000x1 [1] [0] [0] [1] [] []

variable [Facts₀]

def gather_S50000x129_S800000x1_S800000x129_1_0_n_n_0_1_1129 : GatherDims S50000x129 S800000x1 S800000x129 where
  offsetDims := [1]
  collapsedSliceDims := [0]
  operandBatchingDims := []
  startIndicesBatchingDims := []
  startIndexMap := [0]
  indexVectorDim := 1
  sliceSizes := ![1, 129]
  wf := gather_S50000x129_S800000x1_S800000x129_1_0_n_n_0_1_1129_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x257_S257x128_S50000x128_1_0_0_1_n_n : DotDims S50000x257 S257x128 S50000x128 where
  lhsContracting := [1]
  rhsContracting := [0]
  lhsNonContracting := [0]
  rhsNonContracting := [1]
  lhsBatch := []
  rhsBatch := []
  wf := dot_S50000x257_S257x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.GinSpec.lean ====
/-
  The per-node function both programs compute, as a function of ONE row of the node features and of ONE row of
  the neighbour sums, and of the whole weight matrices.

  A node's feature row `xr` (129 entries: the 128 features and the time) and the sum `ar` of its in-neighbours'
  feature rows are added; two dense layers follow (the first through `max · 0`, the second through `tanh` and then
  `max · 0`); the result is laid beside the feature row again (257 entries) and goes through three more dense
  layers, the first two followed by the leaky rectifier `x ↦ x` for `x ≥ 0` and `c · x` otherwise, `c` the f32
  nearest 0.2.  A dense layer is `j ↦ (∑ k, h k · W k j) + b j` on the extended reals.  Nothing here is rearranged
  between the two programs, so no law of the extended reals beyond the definition of each layer is used: both
  programs are shown to be THIS function of the same rows.
-/
import Idealize.ShloMosaic.PureOps.Ideal
import Idealize.ShloMosaic.Lib.ValueIdx

noncomputable section

open scoped BigOperators

namespace Cert.Gin

open Idealize.ShloMosaic Idealize.ShloMosaic.ValueIdx

/-- The f32 zero both programs compare with and take maxima against. -/
abbrev Z : EReal := Ideal.ofBits .f32 0x00000000#32
/-- The leaky rectifier's slope: the f32 nearest 0.2, the same word in both programs. -/
abbrev C : EReal := Ideal.ofBits .f32 0x3E4CCCCD#32

/-- A rank-2 array as its rows. -/
def rows {n K : Nat} (x : (⟨2, ![n, K]⟩ : Shape).Idx → EReal) : Fin n → Fin K → EReal := fun p k => x (ix2 p k)

/-- A one-row matrix as its row. -/
def row0 {K : Nat} (x : (⟨2, ![1, K]⟩ : Shape).Idx → EReal) : Fin K → EReal := fun k => x (ix2 0 k)

/-- A rank-1 array as a function of its coordinate. -/
def vec {K : Nat} (x : (⟨1, ![K]⟩ : Shape).Idx → EReal) : Fin K → EReal := fun k => x (ix1 k)

/-- A dense layer on one row: `j ↦ (∑ k, h k · W k j) + b j`. -/
def dense {K N : Nat} (W : Fin K → Fin N → EReal) (b : Fin N → EReal) (h : Fin K → EReal) (j : Fin N) : EReal :=
  (∑ k : Fin K, h k * W k j) + b j

/-- `max x 0`. -/
def relu (x : EReal) : EReal := max x Z

/-- `x` where `x ≥ 0`, else `c · x`. -/
def leaky (x : EReal) : EReal := Scalar.select (FloatOps.cmpf (F := Ideal) (φ := .f32) .oge x Z) x (C * x)

/-- 128 entries followed by 129 entries. -/
def cat (a : Fin 128 → EReal) (b : Fin 129 → EReal) (k : Fin 257) : EReal :=
  if h : k.val < 128 then a ⟨k.val, h⟩ else b ⟨k.val - 128, by have := k.isLt; omega⟩

/-- One node's prediction from its feature row, its neighbour-sum row and the weights. -/
def rowOut (xr ar : Fin 129 → EReal)
    (W1 : Fin 129 → Fin 128 → EReal) (b1 : Fin 128 → EReal) (W2 : Fin 128 → Fin 128 → EReal) (b2 : Fin 128 → EReal)
    (P1 : Fin 257 → Fin 128 → EReal) (pb1 : Fin 128 → EReal) (P2 : Fin 128 → Fin 128 → EReal) (pb2 : Fin 128 → EReal)
    (P3 : Fin 128 → Fin 1 → EReal) (pb3 : Fin 1 → EReal) : EReal :=
  dense P3 pb3
    (fun j2 => leaky (dense P2 pb2
      (fun j1 => leaky (dense P1 pb1
        (cat (fun j => relu (Ideal.tanh (dense W2 b2 (fun i => relu (dense W1 b1 (fun k => xr k + ar k) i)) j))) xr) j1)) j2)) 0

end Cert.Gin

end
-- ==== Proof.KerDots.lean ====
/-
  The four matrix products of the block, each read at one entry.

  Every product contracts the left operand's column axis against the right operand's row axis and has no batch
  axis, so entry (p, j) of the result is  ∑ k, l (p, k) · r (k, j).  For each product the operand indices the
  dimension numbers assign to an output index and a contraction index are computed axis by axis, the sum over
  the one-axis contraction index set is carried to the sum over k, and the accumulator, a splat of the f32 zero,
  contributes nothing.
-/
import proofs.«175735_j17411797418333_1_alg».proof.Proof.Gen.KernelIdeal.Skeleton
import proofs.«175735_j17411797418333_1_alg».proof.Proof.GinSpec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.SL.Sem Cert.Gin

/-! ## The 129 → 128 product -/

/-- The left operand's row is the output's row. -/
theorem lhs_A_0 (i : S2000x128.Idx) (q : dot_S2000x129_S129x128_S2000x128_1_0_0_1_n_n.contr.Idx) :
    (dot_S2000x129_S129x128_S2000x128_1_0_0_1_n_n.lhsIdx i q 0).val = (i 0).val := by
  unfold DotDims.lhsIdx
  rw [dif_neg (show ¬(0 : Fin S2000x129.rank) ∈ dot_S2000x129_S129x128_S2000x128_1_0_0_1_n_n.lhsBatch by decide),
    dif_pos (show (0 : Fin S2000x129.rank) ∈ dot_S2000x129_S129x128_S2000x128_1_0_0_1_n_n.lhsNonContracting by decide)]
  rfl

/-- The left operand's column is the contraction coordinate. -/
theorem lhs_A_1 (i : S2000x128.Idx) (q : dot_S2000x129_S129x128_S2000x128_1_0_0_1_n_n.contr.Idx) :
    (dot_S2000x129_S129x128_S2000x128_1_0_0_1_n_n.lhsIdx i q 1).val = (q ⟨0, by decide⟩).val :=
  dot_S2000x129_S129x128_S2000x128_1_0_0_1_n_n.lhsIdx_val_of_single rfl i q

/-- The right operand's row is the contraction coordinate. -/
theorem rhs_A_0 (i : S2000x128.Idx) (q : dot_S2000x129_S129x128_S2000x128_1_0_0_1_n_n.contr.Idx) :
    (dot_S2000x129_S129x128_S2000x128_1_0_0_1_n_n.rhsIdx i q 0).val = (q ⟨0, by decide⟩).val :=
  dot_S2000x129_S129x128_S2000x128_1_0_0_1_n_n.rhsIdx_val_of_single rfl i q

/-- The right operand's column is the output's column. -/
theorem rhs_A_1 (i : S2000x128.Idx) (q : dot_S2000x129_S129x128_S2000x128_1_0_0_1_n_n.contr.Idx) :
    (dot_S2000x129_S129x128_S2000x128_1_0_0_1_n_n.rhsIdx i q 1).val = (i 1).val := by
  unfold DotDims.rhsIdx
  rw [dif_neg (show ¬(1 : Fin S129x128.rank) ∈ dot_S2000x129_S129x128_S2000x128_1_0_0_1_n_n.rhsBatch by decide),
    dif_pos (show (1 : Fin S129x128.rank) ∈ dot_S2000x129_S129x128_S2000x128_1_0_0_1_n_n.rhsNonContracting by decide)]
  rfl

/-- Entry (p, j) of the product over a zero accumulator: the sum over the 129 contracted positions. -/
theorem mm_A_apply {φ₁ φ₂ : FTy} (l : FVec Ideal S2000x129 φ₁) (r : FVec Ideal S129x128 φ₂) (p : Fin 2000) (j : Fin 128) :
    matmul dot_S2000x129_S129x128_S2000x128_1_0_0_1_n_n none l r (constant S2000x128 .f32 0x00000000#32) (ix2 p j)
      = ∑ k : Fin 129, l (ix2 p k) * r (ix2 k j) := by
  simp only [matmul]
  rw [Ideal.matmul_constant_zero_apply,
    ← Equiv.sum_comp (ValueIdx.contrEquiv1 dot_S2000x129_S129x128_S2000x128_1_0_0_1_n_n 129 rfl rfl).symm]
  refine Finset.sum_congr rfl fun k _ => ?_
  have hk := ValueIdx.contrEquiv1_symm_val dot_S2000x129_S129x128_S2000x128_1_0_0_1_n_n 129 rfl rfl k
  have el : dot_S2000x129_S129x128_S2000x128_1_0_0_1_n_n.lhsIdx (ix2 p j) ((ValueIdx.contrEquiv1 dot_S2000x129_S129x128_S2000x128_1_0_0_1_n_n 129 rfl rfl).symm k) = ix2 p k :=
    funext fun a => Fin.ext (by
      match a with
      | ⟨0, _⟩ => exact lhs_A_0 _ _
      | ⟨1, _⟩ => exact (lhs_A_1 _ _).trans hk)
  have er : dot_S2000x129_S129x128_S2000x128_1_0_0_1_n_n.rhsIdx (ix2 p j) ((ValueIdx.contrEquiv1 dot_S2000x129_S129x128_S2000x128_1_0_0_1_n_n 129 rfl rfl).symm k) = ix2 k j :=
    funext fun a => Fin.ext (by
      match a with
      | ⟨0, _⟩ => exact (rhs_A_0 _ _).trans hk
      | ⟨1, _⟩ => exact rhs_A_1 _ _)
  rw [el, er]

/-! ## The 128 → 128 product -/

/-- The left operand's row is the output's row. -/
theorem lhs_B_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction coordinate. -/
theorem lhs_B_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction coordinate. -/
theorem rhs_B_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_B_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, j) of the product over a zero accumulator: the sum over the 128 contracted positions. -/
theorem mm_B_apply {φ₁ φ₂ : FTy} (l : FVec Ideal S2000x128 φ₁) (r : FVec Ideal S128x128 φ₂) (p : Fin 2000) (j : Fin 128) :
    matmul dot_S2000x128_S128x128_S2000x128_1_0_0_1_n_n none l r (constant S2000x128 .f32 0x00000000#32) (ix2 p j)
      = ∑ k : Fin 128, l (ix2 p k) * r (ix2 k j) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k :=
    funext fun a => Fin.ext (by
      match a with
      | ⟨0, _⟩ => exact lhs_B_0 _ _
      | ⟨1, _⟩ => exact (lhs_B_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j :=
    funext fun a => Fin.ext (by
      match a with
      | ⟨0, _⟩ => exact (rhs_B_0 _ _).trans hk
      | ⟨1, _⟩ => exact rhs_B_1 _ _)
  rw [el, er]

/-! ## The 257 → 128 product -/

/-- The left operand's row is the output's row. -/
theorem lhs_C_0 (i : S2000x128.Idx) (q : dot_S2000x257_S257x128_S2000x128_1_0_0_1_n_n.contr.Idx) :
    (dot_S2000x257_S257x128_S2000x128_1_0_0_1_n_n.lhsIdx i q 0).val = (i 0).val := by
  unfold DotDims.lhsIdx
  rw [dif_neg (show ¬(0 : Fin S2000x257.rank) ∈ dot_S2000x257_S257x128_S2000x128_1_0_0_1_n_n.lhsBatch by decide),
    dif_pos (show (0 : Fin S2000x257.rank) ∈ dot_S2000x257_S257x128_S2000x128_1_0_0_1_n_n.lhsNonContracting by decide)]
  rfl

/-- The left operand's column is the contraction coordinate. -/
theorem lhs_C_1 (i : S2000x128.Idx) (q : dot_S2000x257_S257x128_S2000x128_1_0_0_1_n_n.contr.Idx) :
    (dot_S2000x257_S257x128_S2000x128_1_0_0_1_n_n.lhsIdx i q 1).val = (q ⟨0, by decide⟩).val :=
  dot_S2000x257_S257x128_S2000x128_1_0_0_1_n_n.lhsIdx_val_of_single rfl i q

/-- The right operand's row is the contraction coordinate. -/
theorem rhs_C_0 (i : S2000x128.Idx) (q : dot_S2000x257_S257x128_S2000x128_1_0_0_1_n_n.contr.Idx) :
    (dot_S2000x257_S257x128_S2000x128_1_0_0_1_n_n.rhsIdx i q 0).val = (q ⟨0, by decide⟩).val :=
  dot_S2000x257_S257x128_S2000x128_1_0_0_1_n_n.rhsIdx_val_of_single rfl i q

/-- The right operand's column is the output's column. -/
theorem rhs_C_1 (i : S2000x128.Idx) (q : dot_S2000x257_S257x128_S2000x128_1_0_0_1_n_n.contr.Idx) :
    (dot_S2000x257_S257x128_S2000x128_1_0_0_1_n_n.rhsIdx i q 1).val = (i 1).val := by
  unfold DotDims.rhsIdx
  rw [dif_neg (show ¬(1 : Fin S257x128.rank) ∈ dot_S2000x257_S257x128_S2000x128_1_0_0_1_n_n.rhsBatch by decide),
    dif_pos (show (1 : Fin S257x128.rank) ∈ dot_S2000x257_S257x128_S2000x128_1_0_0_1_n_n.rhsNonContracting by decide)]
  rfl

/-- Entry (p, j) of the product over a zero accumulator: the sum over the 257 contracted positions. -/
theorem mm_C_apply {φ₁ φ₂ : FTy} (l : FVec Ideal S2000x257 φ₁) (r : FVec Ideal S257x128 φ₂) (p : Fin 2000) (j : Fin 128) :
    matmul dot_S2000x257_S257x128_S2000x128_1_0_0_1_n_n none l r (constant S2000x128 .f32 0x00000000#32) (ix2 p j)
      = ∑ k : Fin 257, l (ix2 p k) * r (ix2 k j) := by
  simp only [matmul]
  rw [Ideal.matmul_constant_zero_apply,
    ← Equiv.sum_comp (ValueIdx.contrEquiv1 dot_S2000x257_S257x128_S2000x128_1_0_0_1_n_n 257 rfl rfl).symm]
  refine Finset.sum_congr rfl fun k _ => ?_
  have hk := ValueIdx.contrEquiv1_symm_val dot_S2000x257_S257x128_S2000x128_1_0_0_1_n_n 257 rfl rfl k
  have el : dot_S2000x257_S257x128_S2000x128_1_0_0_1_n_n.lhsIdx (ix2 p j) ((ValueIdx.contrEquiv1 dot_S2000x257_S257x128_S2000x128_1_0_0_1_n_n 257 rfl rfl).symm k) = ix2 p k :=
    funext fun a => Fin.ext (by
      match a with
      | ⟨0, _⟩ => exact lhs_C_0 _ _
      | ⟨1, _⟩ => exact (lhs_C_1 _ _).trans hk)
  have er : dot_S2000x257_S257x128_S2000x128_1_0_0_1_n_n.rhsIdx (ix2 p j) ((ValueIdx.contrEquiv1 dot_S2000x257_S257x128_S2000x128_1_0_0_1_n_n 257 rfl rfl).symm k) = ix2 k j :=
    funext fun a => Fin.ext (by
      match a with
      | ⟨0, _⟩ => exact (rhs_C_0 _ _).trans hk
      | ⟨1, _⟩ => exact rhs_C_1 _ _)
  rw [el, er]

/-! ## The 128 → 1 product -/

/-- The left operand's row is the output's row. -/
theorem lhs_D_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl

/-- The left operand's column is the contraction coordinate. -/
theorem lhs_D_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q

/-- The right operand's row is the contraction coordinate. -/
theorem rhs_D_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q

/-- The right operand's column is the output's column. -/
theorem rhs_D_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl

/-- Entry (p, j) of the product over a zero accumulator: the sum over the 128 contracted positions. -/
theorem mm_D_apply {φ₁ φ₂ : FTy} (l : FVec Ideal S2000x128 φ₁) (r : FVec Ideal S128x1 φ₂) (p : Fin 2000) (j : Fin 1) :
    matmul dot_S2000x128_S128x1_S2000x1_1_0_0_1_n_n none l r (constant S2000x1 .f32 0x00000000#32) (ix2 p j)
      = ∑ k : Fin 128, l (ix2 p k) * r (ix2 k j) := by
  simp only [matmul]
  rw [Ideal.matmul_constant_zero_apply,
    ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p j) ((ValueIdx.contrEquiv1 dot_S2000x128_S128x1_S2000x1_1_0_0_1_n_n 128 rfl rfl).symm k) = ix2 p k :=
    funext fun a => Fin.ext (by
      match a with
      | ⟨0, _⟩ => exact lhs_D_0 _ _
      | ⟨1, _⟩ => exact (lhs_D_1 _ _).trans hk)
  have er : dot_S2000x128_S128x1_S2000x1_1_0_0_1_n_n.rhsIdx (ix2 p j) ((ValueIdx.contrEquiv1 dot_S2000x128_S128x1_S2000x1_1_0_0_1_n_n 128 rfl rfl).symm k) = ix2 k j :=
    funext fun a => Fin.ext (by
      match a with
      | ⟨0, _⟩ => exact (rhs_D_0 _ _).trans hk
      | ⟨1, _⟩ => exact rhs_D_1 _ _)
  rw [el, er]

end Cert.KernelIdeal.Hand

end
-- ==== Proof.KerLayers.lean ====
/-
  The block's layers, each read one row at a time.

  A dense layer of the block is a matrix product over a zero accumulator plus a one-row bias laid along every row;
  read at row p it is the specification's `dense` of the weight's rows, the bias's row and row p of the input.  The
  format changes before a product are the identity on the extended reals.  The pointwise steps (the sum of the two
  input blocks, the maximum with the zero splat, the hyperbolic tangent, the leaky rectifier written as a
  comparison, a product with the slope splat and a select) act entry by entry, and laying two blocks side by side
  puts row p of the first before row p of the second.
-/
import proofs.«175735_j17411797418333_1_alg».proof.Proof.KerDots

noncomputable section

open scoped BigOperators

namespace Cert.KernelIdeal.Hand

open Cert.KernelIdeal Cert.KernelIdeal.Gen Idealize.ShloMosaic Idealize.ShloMosaic.ValueIdx Idealize.SL.Sem Cert.Gin

/-! ## A one-row bias laid along the rows -/

/-- Entry (p, j) of a 1 × 128 bias laid along 2000 rows is the bias's entry j. -/
theorem bias128_apply (b : Vec Ideal S1x128 .f32) (p : Fin 2000) (j : Fin 128) :
    broadcastTo S2000x128 (shapeCast S1x128 b shapeCasts_S1x128_S1x128) broadcasts_S1x128_S2000x128 (ix2 p j)
      = b (ix2 0 j) := by
  rw [shapeCast_self]
  refine broadcastTo_apply b _ (ix2 p j) (ix2 0 j) fun a => ?_
  match a with
  | ⟨0, _⟩ => rfl
  | ⟨1, _⟩ => rfl

/-- Entry (p, 0) of a 1 × 1 bias laid along 2000 rows is the bias's one entry. -/
theorem bias1_apply (b : Vec Ideal S1x1 .f32) (p : Fin 2000) (j : Fin 1) :
    broadcastTo S2000x1 (shapeCast S1x1 b shapeCasts_S1x1_S1x1) broadcasts_S1x1_S2000x1 (ix2 p j)
      = b (ix2 0 j) := by
  rw [shapeCast_self]
  refine broadcastTo_apply b _ (ix2 p j) (ix2 0 j) fun a => ?_
  match a with
  | ⟨0, _⟩ => rfl
  | ⟨1, _⟩ =>
    obtain rfl : j = 0 := Subsingleton.elim _ _
    rfl

/-! ## The dense layers, row by row -/

/-- The 129 → 128 layer. -/
theorem denseA_rows (l : FVec Ideal S2000x129 .f32) (w : Vec Ideal S129x128 .f32) (b : Vec Ideal S1x128 .f32) (p : Fin 2000) :
    rows (addf (matmul dot_S2000x129_S129x128_S2000x128_1_0_0_1_n_n none (truncf .bf16 l bitsLt_bf16_f32)
        (truncf .bf16 w bitsLt_bf16_f32) (constant S2000x128 .f32 0x00000000#32))
      (broadcastTo S2000x128 (shapeCast S1x128 b shapeCasts_S1x128_S1x128) broadcasts_S1x128_S2000x128)) p
      = dense (rows w) (row0 b) (rows l p) := by
  funext j
  show addf _ _ (ix2 p j) = _
  rw [addf_apply, mm_A_apply, bias128_apply]
  rfl

/-- The 128 → 128 layers. -/
theorem denseB_rows (l : FVec Ideal S2000x128 .f32) (w : Vec Ideal S128x128 .f32) (b : Vec Ideal S1x128 .f32) (p : Fin 2000) :
    rows (addf (matmul dot_S2000x128_S128x128_S2000x128_1_0_0_1_n_n none (truncf .bf16 l bitsLt_bf16_f32)
        (truncf .bf16 w bitsLt_bf16_f32) (constant S2000x128 .f32 0x00000000#32))
      (broadcastTo S2000x128 (shapeCast S1x128 b shapeCasts_S1x128_S1x128) broadcasts_S1x128_S2000x128)) p
      = dense (rows w) (row0 b) (rows l p) := by
  funext j
  show addf _ _ (ix2 p j) = _
  rw [addf_apply, mm_B_apply, bias128_apply]
  rfl

/-- The 257 → 128 layer. -/
theorem denseC_rows (l : FVec Ideal S2000x257 .f32) (w : Vec Ideal S257x128 .f32) (b : Vec Ideal S1x128 .f32) (p : Fin 2000) :
    rows (addf (matmul dot_S2000x257_S257x128_S2000x128_1_0_0_1_n_n none (truncf .bf16 l bitsLt_bf16_f32)
        (truncf .bf16 w bitsLt_bf16_f32) (constant S2000x128 .f32 0x00000000#32))
      (broadcastTo S2000x128 (shapeCast S1x128 b shapeCasts_S1x128_S1x128) broadcasts_S1x128_S2000x128)) p
      = dense (rows w) (row0 b) (rows l p) := by
  funext j
  show addf _ _ (ix2 p j) = _
  rw [addf_apply, mm_C_apply, bias128_apply]
  rfl

/-- The 128 → 1 layer. -/
theorem denseD_rows (l : FVec Ideal S2000x128 .f32) (w : Vec Ideal S128x1 .f32) (b : Vec Ideal S1x1 .f32) (p : Fin 2000) :
    rows (addf (matmul dot_S2000x128_S128x1_S2000x1_1_0_0_1_n_n none (truncf .bf16 l bitsLt_bf16_f32)
        (truncf .bf16 w bitsLt_bf16_f32) (constant S2000x1 .f32 0x00000000#32))
      (broadcastTo S2000x1 (shapeCast S1x1 b shapeCasts_S1x1_S1x1) broadcasts_S1x1_S2000x1)) p
      = dense (rows w) (row0 b) (rows l p) := by
  funext j
  show addf _ _ (ix2 p j) = _
  rw [addf_apply, mm_D_apply, bias1_apply]
  rfl

/-! ## The pointwise steps, row by row -/

/-- The sum of two blocks. -/
theorem add_rows (a b : FVec Ideal S2000x129 .f32) (p : Fin 2000) :
    rows (addf a b) p = fun k => rows a p k + rows b p k := rfl

/-- The maximum with the zero splat. -/
theorem relu_rows (a : FVec Ideal S2000x128 .f32) (p : Fin 2000) :
    rows (maximumf a (broadcast S2000x128 (Scalar.ofBits .f32 0x00000000#32))) p = fun j => relu (rows a p j) := rfl

/-- The hyperbolic tangent. -/
theorem tanh_rows (a : FVec Ideal S2000x128 .f32) (p : Fin 2000) :
    rows (tanh a) p = fun j => Ideal.tanh (rows a p j) := rfl

/-- The leaky rectifier: the entry where it is at least zero, else the slope times the entry. -/
theorem leaky_rows (a : FVec Ideal S2000x128 .f32) (p : Fin 2000) :
    rows (select (cmpf .oge a (broadcast S2000x128 (Scalar.ofBits .f32 0x00000000#32))) a
      (mulf (broadcast S2000x128 (Scalar.ofBits .f32 0x3E4CCCCD#32)) a)) p = fun j => leaky (rows a p j) := rfl

/-! ## Two blocks side by side -/

/-- Row p of 128 columns followed by 129 columns is row p of the first followed by row p of the second. -/
theorem cat_rows (a : FVec Ideal S2000x128 .f32) (b : FVec Ideal S2000x129 .f32) (p : Fin 2000) :
    rows (concatenate S2000x257 1 [⟨S2000x128, a⟩, ⟨S2000x129, b⟩] concatenates_S2000x128_S2000x129_S2000x257_d1) p
      = cat (rows a p) (rows b p) := by
  funext k
  show concatenate S2000x257 1 [⟨S2000x128, a⟩, ⟨S2000x129, b⟩] _ (ix2 p k) = _
  unfold cat
  by_cases hk : k.val < 128
  · rw [dif_pos hk]
    refine concatenate_pair_apply_left (1 : Fin S2000x257.rank) a b _ (ix2 p k) rfl (ix2 p ⟨k.val, hk⟩) fun c => ?_
    match c with
    | ⟨0, _⟩ => rfl
    | ⟨1, _⟩ => rfl
  · rw [dif_neg hk]
    have hk' : k.val - 128 < 129 := by have := k.isLt; omega
    refine concatenate_pair_apply_right (1 : Fin S2000x257.rank) a b _ (ix2 p k) rfl rfl (ix2 p ⟨k.val - 128, hk'⟩)
      (fun c hc => ?_) ?_
    · match c with
      | ⟨0, _⟩ => rfl
      | ⟨1, _⟩ => exact absurd rfl hc
    · show k.val - 128 + 128 = k.val
      omega

end Cert.KernelIdeal.Hand

end
-- ==== Proof.KerPayload.lean ====
/-
  The value the block's body stores, read at one row.

  The stored array is the last dense layer (128 → 1) of the leaky rectifier of the dense layer (128 → 128) before
  it, of the leaky rectifier of the 257 → 128 layer on the hidden block laid beside the node rows; the hidden block
  is the maximum with zero of the hyperbolic tangent of the 128 → 128 layer on the maximum with zero of the
  129 → 128 layer on the sum of the node rows and the neighbour sums.  Each of these acts row by row, so row p of
  the stored array is the specification's `rowOut` of row p of the two input blocks and of the weights.
-/
import proofs.«175735_j17411797418333_1_alg».proof.Proof.KerLayers

noncomputable section

open scoped BigOperators

namespace Cert.KernelIdeal.Hand

open Cert.KernelIdeal Cert.KernelIdeal.Gen Idealize.ShloMosaic Idealize.ShloMosaic.ValueIdx Idealize.SL.Sem Cert.Gin

theorem pay_apply (x0 x1 : Vec Ideal S2000x129 .f32) (x2 : Vec Ideal S129x128 .f32) (x3 : Vec Ideal S1x128 .f32)
    (x4 : Vec Ideal S128x128 .f32) (x5 : Vec Ideal S1x128 .f32) (x6 : Vec Ideal S257x128 .f32) (x7 : Vec Ideal S1x128 .f32)
    (x8 : Vec Ideal S128x128 .f32) (x9 : Vec Ideal S1x128 .f32) (x10 : Vec Ideal S128x1 .f32) (x11 : Vec Ideal S1x1 .f32)
    (p : Fin 2000) :
    k0_pay1 (k0_pay2 x0 x1 x2 x3 x4 x5 x6 x7) (Scalar.ofBits .f32 0x3E4CCCCD#32) (k0_pay3 (F := Ideal)) x8 x9 x10 x11 (ix2 p 0)
      = rowOut (rows x0 p) (rows x1 p) (rows x2) (row0 x3) (rows x4) (row0 x5) (rows x6) (row0 x7) (rows x8) (row0 x9)
          (rows x10) (row0 x11) := by
  -- the stored entry is entry 0 of row p of the stored array
  show rows (k0_pay1 (k0_pay2 x0 x1 x2 x3 x4 x5 x6 x7) (Scalar.ofBits .f32 0x3E4CCCCD#32) (k0_pay3 (F := Ideal)) x8 x9 x10 x11) p 0 = _
  unfold k0_pay1 k0_pay2 k0_pay3
  dsimp only
  -- the input blocks' casts to their own shape are the blocks
  rw [shapeCast_self x0, shapeCast_self x1]
  -- the layers from the last to the first
  rw [denseD_rows, leaky_rows, denseB_rows, leaky_rows, denseC_rows, cat_rows, relu_rows, tanh_rows, denseB_rows,
    relu_rows, denseA_rows, add_rows]
  rfl

end Cert.KernelIdeal.Hand

end
-- ==== Proof.KerValue.lean ====
/-
  What the kernel's result array holds after the run, as a function of the arrays the region finds.

  The grid has 25 points; point `t` reads rows `2000·t … 2000·t + 1999` of the node rows and of the neighbour sums,
  reads every weight matrix whole, and writes rows `2000·t … 2000·t + 1999` of the result.  Row `p` of what it writes is
  the per-node function of row `p` of its two row blocks (`pay_apply`, proved apart), that is of rows
  `2000·t + p` of the two arrays.  The 25 row blocks tile the 50000 rows, so the result array ends holding the
  per-node function at every node.
-/
import proofs.«175735_j17411797418333_1_alg».proof.Proof.Gen.KernelIdeal.Frame
import proofs.«175735_j17411797418333_1_alg».proof.Proof.GinSpec
import Idealize.ShloMosaic.Lib.Pipeline.Value
import proofs.«175735_j17411797418333_1_alg».proof.Proof.KerPayload
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo Cert.Gin

variable (m : (ℓ : Loc nD τ sig) → Buf (Elt Ideal) ℓ) (ρ : Dev nD → PrngReg)

/-! ## The arrays the region finds, at their literal types -/

abbrev aXT (c : Dev nD) : Vec Ideal S50000x129 .f32 := V m c main_v1
abbrev aAG (c : Dev nD) : Vec Ideal S50000x129 .f32 := V m c main_v15
abbrev aW1 (c : Dev nD) : Vec Ideal S129x128 .f32 := V m c main_arg4
abbrev aB1 (c : Dev nD) : Vec Ideal S1x128 .f32 := V m c main_v16
abbrev aW2 (c : Dev nD) : Vec Ideal S128x128 .f32 := V m c main_arg6
abbrev aB2 (c : Dev nD) : Vec Ideal S1x128 .f32 := V m c main_v17
abbrev aP1 (c : Dev nD) : Vec Ideal S257x128 .f32 := V m c main_arg8
abbrev aQ1 (c : Dev nD) : Vec Ideal S1x128 .f32 := V m c main_v18
abbrev aP2 (c : Dev nD) : Vec Ideal S128x128 .f32 := V m c main_arg10
abbrev aQ2 (c : Dev nD) : Vec Ideal S1x128 .f32 := V m c main_v19
abbrev aP3 (c : Dev nD) : Vec Ideal S128x1 .f32 := V m c main_arg12
abbrev aQ3 (c : Dev nD) : Vec Ideal S1x1 .f32 := V m c main_v20

/-- The result array: at node `i 0` the per-node function of that node's rows. -/
def nodeOut (c : Dev nD) : Vec Ideal S50000x1 .f32 := fun i =>
  rowOut (rows (aXT m c) (i 0)) (rows (aAG m c) (i 0)) (rows (aW1 m c)) (row0 (aB1 m c)) (rows (aW2 m c)) (row0 (aB2 m c))
    (rows (aP1 m c)) (row0 (aQ1 m c)) (rows (aP2 m c)) (row0 (aQ2 m c)) (rows (aP3 m c)) (row0 (aQ3 m c))

theorem hz : (![0, 0] : Fin 2 → Nat) = fun _ => 0 := funext fun a => by fin_cases a <;> rfl

/-! ## Which block each window reads at a point -/

/-- The two row-blocked inputs and the output sit at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0 :=
  (by decide +kernel : ∀ t : Fin grid0.N, _)

/-- Every weight window sits at block (0, 0): its one block is the whole matrix. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## The blocks as rows of the arrays -/

/-- Row `p` of the node-row block at point `t` is row `2000·t + p` of the array. -/
theorem blk0_rows (c : Dev nD) (t : Fin cfg0.N) (p : Fin 2000) (r : Fin 50000) (hr : r.val = 2000 * t.val + p.val) :
    rows (iblk m c 0 t : Vec Ideal S2000x129 .f32) p = rows (aXT m c) r := by
  obtain ⟨e0, e1, -⟩ := idx_rows t
  funext k
  show (iblk m c 0 t : Vec Ideal S2000x129 .f32) (ix2 p k) = aXT m c (ix2 r k)
  unfold iblk
  refine ((View.read_apply _ _).trans (cast_eq _ _)).trans ?_
  show aXT m c (((cfg0.win 0).blk t).view.emb (ix2 p k)) = aXT m c (ix2 r k)
  refine congrArg (aXT m c) (funext fun a => Fin.ext ?_)
  match a with
  | ⟨0, _⟩ => show win0_0.index t (0 : Fin 2) * 2000 + 1 * p.val = r.val; rw [e0, hr]; omega
  | ⟨1, _⟩ => show win0_0.index t (1 : Fin 2) * 129 + 1 * k.val = k.val; rw [e1]; omega

/-- Row `p` of the neighbour-sum block at point `t` is row `2000·t + p` of the array. -/
theorem blk1_rows (c : Dev nD) (t : Fin cfg0.N) (p : Fin 2000) (r : Fin 50000) (hr : r.val = 2000 * t.val + p.val) :
    rows (iblk m c 1 t : Vec Ideal S2000x129 .f32) p = rows (aAG m c) r := by
  obtain ⟨-, -, e0, e1, -⟩ := idx_rows t
  funext k
  show (iblk m c 1 t : Vec Ideal S2000x129 .f32) (ix2 p k) = aAG m c (ix2 r k)
  unfold iblk
  refine ((View.read_apply _ _).trans (cast_eq _ _)).trans ?_
  show aAG m c (((cfg0.win 1).blk t).view.emb (ix2 p k)) = aAG m c (ix2 r k)
  refine congrArg (aAG m c) (funext fun a => Fin.ext ?_)
  match a with
  | ⟨0, _⟩ => show win0_1.index t (0 : Fin 2) * 2000 + 1 * p.val = r.val; rw [e0, hr]; omega
  | ⟨1, _⟩ => show win0_1.index t (1 : Fin 2) * 129 + 1 * k.val = k.val; rw [e1]; omega

/-- The first layer's weights are read whole at every point. -/
theorem blk2_eq (c : Dev nD) (t : Fin cfg0.N) : (iblk m c 2 t : Vec Ideal S129x128 .f32) = aW1 m c := by
  have e := (idx_whole t).1
  funext y
  unfold iblk
  refine ((View.read_apply _ _).trans (cast_eq _ _)).trans ?_
  show aW1 m c (((cfg0.win 2).blk t).view.emb y) = aW1 m c y
  refine congrArg (aW1 m c) (funext fun a => Fin.ext ?_)
  match a with
  | ⟨0, _⟩ => show win0_2.index t (0 : Fin 2) * 129 + 1 * (y 0).val = (y 0).val; rw [e.1]; omega
  | ⟨1, _⟩ => show win0_2.index t (1 : Fin 2) * 128 + 1 * (y 1).val = (y 1).val; rw [e.2]; omega

/-- The first layer's bias row is read whole at every point. -/
theorem blk3_eq (c : Dev nD) (t : Fin cfg0.N) : (iblk m c 3 t : Vec Ideal S1x128 .f32) = aB1 m c := by
  have e := (idx_whole t).2.1
  funext y
  unfold iblk
  refine ((View.read_apply _ _).trans (cast_eq _ _)).trans ?_
  show aB1 m c (((cfg0.win 3).blk t).view.emb y) = aB1 m c y
  refine congrArg (aB1 m c) (funext fun a => Fin.ext ?_)
  match a with
  | ⟨0, _⟩ => show win0_3.index t (0 : Fin 2) * 1 + 1 * (y 0).val = (y 0).val; rw [e.1]; omega
  | ⟨1, _⟩ => show win0_3.index t (1 : Fin 2) * 128 + 1 * (y 1).val = (y 1).val; rw [e.2]; omega

/-- The second layer's weights are read whole at every point. -/
theorem blk4_eq (c : Dev nD) (t : Fin cfg0.N) : (iblk m c 4 t : Vec Ideal S128x128 .f32) = aW2 m c := by
  have e := (idx_whole t).2.2.1
  funext y
  unfold iblk
  refine ((View.read_apply _ _).trans (cast_eq _ _)).trans ?_
  show aW2 m c (((cfg0.win 4).blk t).view.emb y) = aW2 m c y
  refine congrArg (aW2 m c) (funext fun a => Fin.ext ?_)
  match a with
  | ⟨0, _⟩ => show win0_4.index t (0 : Fin 2) * 128 + 1 * (y 0).val = (y 0).val; rw [e.1]; omega
  | ⟨1, _⟩ => show win0_4.index t (1 : Fin 2) * 128 + 1 * (y 1).val = (y 1).val; rw [e.2]; omega

/-- The second layer's bias row is read whole at every point. -/
theorem blk5_eq (c : Dev nD) (t : Fin cfg0.N) : (iblk m c 5 t : Vec Ideal S1x128 .f32) = aB2 m c := by
  have e := (idx_whole t).2.2.2.1
  funext y
  unfold iblk
  refine ((View.read_apply _ _).trans (cast_eq _ _)).trans ?_
  show aB2 m c (((cfg0.win 5).blk t).view.emb y) = aB2 m c y
  refine congrArg (aB2 m c) (funext fun a => Fin.ext ?_)
  match a with
  | ⟨0, _⟩ => show win0_5.index t (0 : Fin 2) * 1 + 1 * (y 0).val = (y 0).val; rw [e.1]; omega
  | ⟨1, _⟩ => show win0_5.index t (1 : Fin 2) * 128 + 1 * (y 1).val = (y 1).val; rw [e.2]; omega

/-- The predictor's first weights are read whole at every point. -/
theorem blk6_eq (c : Dev nD) (t : Fin cfg0.N) : (iblk m c 6 t : Vec Ideal S257x128 .f32) = aP1 m c := by
  have e := (idx_whole t).2.2.2.2.1
  funext y
  unfold iblk
  refine ((View.read_apply _ _).trans (cast_eq _ _)).trans ?_
  show aP1 m c (((cfg0.win 6).blk t).view.emb y) = aP1 m c y
  refine congrArg (aP1 m c) (funext fun a => Fin.ext ?_)
  match a with
  | ⟨0, _⟩ => show win0_6.index t (0 : Fin 2) * 257 + 1 * (y 0).val = (y 0).val; rw [e.1]; omega
  | ⟨1, _⟩ => show win0_6.index t (1 : Fin 2) * 128 + 1 * (y 1).val = (y 1).val; rw [e.2]; omega

/-- The predictor's first bias row is read whole at every point. -/
theorem blk7_eq (c : Dev nD) (t : Fin cfg0.N) : (iblk m c 7 t : Vec Ideal S1x128 .f32) = aQ1 m c := by
  have e := (idx_whole t).2.2.2.2.2.1
  funext y
  unfold iblk
  refine ((View.read_apply _ _).trans (cast_eq _ _)).trans ?_
  show aQ1 m c (((cfg0.win 7).blk t).view.emb y) = aQ1 m c y
  refine congrArg (aQ1 m c) (funext fun a => Fin.ext ?_)
  match a with
  | ⟨0, _⟩ => show win0_7.index t (0 : Fin 2) * 1 + 1 * (y 0).val = (y 0).val; rw [e.1]; omega
  | ⟨1, _⟩ => show win0_7.index t (1 : Fin 2) * 128 + 1 * (y 1).val = (y 1).val; rw [e.2]; omega

/-- The predictor's second weights are read whole at every point. -/
theorem blk8_eq (c : Dev nD) (t : Fin cfg0.N) : (iblk m c 8 t : Vec Ideal S128x128 .f32) = aP2 m c := by
  have e := (idx_whole t).2.2.2.2.2.2.1
  funext y
  unfold iblk
  refine ((View.read_apply _ _).trans (cast_eq _ _)).trans ?_
  show aP2 m c (((cfg0.win 8).blk t).view.emb y) = aP2 m c y
  refine congrArg (aP2 m c) (funext fun a => Fin.ext ?_)
  match a with
  | ⟨0, _⟩ => show win0_8.index t (0 : Fin 2) * 128 + 1 * (y 0).val = (y 0).val; rw [e.1]; omega
  | ⟨1, _⟩ => show win0_8.index t (1 : Fin 2) * 128 + 1 * (y 1).val = (y 1).val; rw [e.2]; omega

/-- The predictor's second bias row is read whole at every point. -/
theorem blk9_eq (c : Dev nD) (t : Fin cfg0.N) : (iblk m c 9 t : Vec Ideal S1x128 .f32) = aQ2 m c := by
  have e := (idx_whole t).2.2.2.2.2.2.2.1
  funext y
  unfold iblk
  refine ((View.read_apply _ _).trans (cast_eq _ _)).trans ?_
  show aQ2 m c (((cfg0.win 9).blk t).view.emb y) = aQ2 m c y
  refine congrArg (aQ2 m c) (funext fun a => Fin.ext ?_)
  match a with
  | ⟨0, _⟩ => show win0_9.index t (0 : Fin 2) * 1 + 1 * (y 0).val = (y 0).val; rw [e.1]; omega
  | ⟨1, _⟩ => show win0_9.index t (1 : Fin 2) * 128 + 1 * (y 1).val = (y 1).val; rw [e.2]; omega

/-- The predictor's last weights are read whole at every point. -/
theorem blk10_eq (c : Dev nD) (t : Fin cfg0.N) : (iblk m c 10 t : Vec Ideal S128x1 .f32) = aP3 m c := by
  have e := (idx_whole t).2.2.2.2.2.2.2.2.1
  funext y
  unfold iblk
  refine ((View.read_apply _ _).trans (cast_eq _ _)).trans ?_
  show aP3 m c (((cfg0.win 10).blk t).view.emb y) = aP3 m c y
  refine congrArg (aP3 m c) (funext fun a => Fin.ext ?_)
  match a with
  | ⟨0, _⟩ => show win0_10.index t (0 : Fin 2) * 128 + 1 * (y 0).val = (y 0).val; rw [e.1]; omega
  | ⟨1, _⟩ => show win0_10.index t (1 : Fin 2) * 1 + 1 * (y 1).val = (y 1).val; rw [e.2]; omega

/-- The predictor's last bias is read whole at every point. -/
theorem blk11_eq (c : Dev nD) (t : Fin cfg0.N) : (iblk m c 11 t : Vec Ideal S1x1 .f32) = aQ3 m c := by
  have e := (idx_whole t).2.2.2.2.2.2.2.2.2
  funext y
  unfold iblk
  refine ((View.read_apply _ _).trans (cast_eq _ _)).trans ?_
  show aQ3 m c (((cfg0.win 11).blk t).view.emb y) = aQ3 m c y
  refine congrArg (aQ3 m c) (funext fun a => Fin.ext ?_)
  match a with
  | ⟨0, _⟩ => show win0_11.index t (0 : Fin 2) * 1 + 1 * (y 0).val = (y 0).val; rw [e.1]; omega
  | ⟨1, _⟩ => show win0_11.index t (1 : Fin 2) * 1 + 1 * (y 1).val = (y 1).val; rw [e.2]; omega

/-! ## What a point writes back, the cover, the array -/

/-- The per-node function respects equal arguments (a plain congruence, stated so that each argument's equation is
    given by name). -/
theorem rowOut_congr {xr xr' ar ar' : Fin 129 → EReal}
    {W1 W1' : Fin 129 → Fin 128 → EReal} {b1 b1' : Fin 128 → EReal} {W2 W2' : Fin 128 → Fin 128 → EReal} {b2 b2' : Fin 128 → EReal}
    {P1 P1' : Fin 257 → Fin 128 → EReal} {q1 q1' : Fin 128 → EReal} {P2 P2' : Fin 128 → Fin 128 → EReal} {q2 q2' : Fin 128 → EReal}
    {P3 P3' : Fin 128 → Fin 1 → EReal} {q3 q3' : Fin 1 → EReal}
    (h0 : xr = xr') (h1 : ar = ar') (h2 : W1 = W1') (h3 : b1 = b1') (h4 : W2 = W2') (h5 : b2 = b2') (h6 : P1 = P1') (h7 : q1 = q1')
    (h8 : P2 = P2') (h9 : q2 = q2') (h10 : P3 = P3') (h11 : q3 = q3') :
    rowOut xr ar W1 b1 W2 b2 P1 q1 P2 q2 P3 q3 = rowOut xr' ar' W1' b1' W2' b2' P1' q1' P2' q2' P3' q3' := by
  subst h0 h1 h2 h3 h4 h5 h6 h7 h8 h9 h10 h11; rfl

/-- WHAT POINT `t` WRITES BACK is block `t` of `nodeOut`: rows `2000·t …` of the per-node function. -/
theorem flushed_eq (c : Dev nD) (t : Fin cfg0.N) :
    (dats m 0 c).flushed 12 t = ((cfg0.win 12).blk t).view.read (Elt Ideal) (nodeOut m c) := by
  obtain ⟨-, -, -, -, e0, e1⟩ := idx_rows t
  have hN : cfg0.N = 25 := N_0
  have ht : t.val < 25 := hN ▸ t.isLt
  show (cfg0.win 12).cut (grid0.coords t) ((dats m 0 c).after 12 t) = _
  rw [after0_12]
  unfold out0_12
  rw [View.canon_unit_zero hz]
  simp only [View.ld_unit_zero (S := S2000x129) hz, View.ld_unit_zero (S := S129x128) hz, View.ld_unit_zero (S := S1x128) hz,
    View.ld_unit_zero (S := S128x128) hz, View.ld_unit_zero (S := S257x128) hz, View.ld_unit_zero (S := S128x1) hz,
    View.ld_unit_zero (S := S1x1) hz]
  funext y
  obtain ⟨p, q, rfl⟩ : ∃ (p : Fin 2000) (q : Fin 1), y = ix2 p q := ⟨y 0, y 1, eq_ix2 y⟩
  obtain rfl : q = 0 := Subsingleton.elim _ _
  refine (pay_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p).trans ?_
  refine Eq.symm (((View.read_apply _ _).trans (cast_eq _ _)).trans (Eq.symm ?_))
  have hr : ((((cfg0.win 12).blk t).view.emb (ix2 p (0 : Fin 1))) 0).val = 2000 * t.val + p.val := by
    show win0_12.index t (0 : Fin 2) * 2000 + 1 * p.val = _
    rw [e0]; omega
  exact rowOut_congr (blk0_rows m c t p _ hr) (blk1_rows m c t p _ hr) (congrArg rows (blk2_eq m c t))
    (congrArg row0 (blk3_eq m c t)) (congrArg rows (blk4_eq m c t)) (congrArg row0 (blk5_eq m c t))
    (congrArg rows (blk6_eq m c t)) (congrArg row0 (blk7_eq m c t)) (congrArg rows (blk8_eq m c t))
    (congrArg row0 (blk9_eq m c t)) (congrArg rows (blk10_eq m c t)) (congrArg row0 (blk11_eq m c t))

/-- An index of the result array is in point `t`'s block iff each coordinate is in the block's range on its axis. -/
theorem mem_blk (t : Fin cfg0.N) (i : S50000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v21).slice (win0_12.rect t)).set ↔ _
  rw [View.set_slice_whole, Rect.mem_set_unit]
  exact Iff.rfl

/-- Every node's row is in the block of the point `row / 2000`. -/
theorem cover (i : S50000x1.Idx) : ∃ t : Fin cfg0.N, (cfg0.win 12).flush t = true ∧ i ∈ ((cfg0.win 12).blk t).view.set := by
  have hN : cfg0.N = 25 := N_0
  have h0 : (i 0).val < 50000 := (i 0).isLt
  have h1 : (i 1).val < 1 := (i 1).isLt
  have ht : (i 0).val / 2000 < cfg0.N := by rw [hN]; omega
  obtain ⟨-, -, -, -, e0, e1⟩ := idx_rows ⟨(i 0).val / 2000, ht⟩
  refine ⟨⟨(i 0).val / 2000, ht⟩, flush0_12 _, ?_⟩
  rw [mem_blk]
  intro a
  match a with
  | ⟨0, _⟩ =>
    show win0_12.index ⟨(i 0).val / 2000, ht⟩ (0 : Fin 2) * 2000 ≤ (i 0).val ∧ (i 0).val < win0_12.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_12.index ⟨(i 0).val / 2000, ht⟩ (1 : Fin 2) * 1 ≤ (i 1).val ∧ (i 1).val < win0_12.index ⟨(i 0).val / 2000, ht⟩ (1 : Fin 2) * 1 + 1
    rw [e1]; omega

/-- THE RESULT ARRAY after the run: the per-node function at every node. -/
theorem final (c : Dev nD) : (dats m 0 c).arrAt 12 cfg0.N = nodeOut m c :=
  (dats m 0 c).arrAt_eq_of_cover 12 (nodeOut m c) (fun t _ => flushed_eq m c t) (cover)

/-! ## The run -/

/-- The program's first result: zeros. -/
def zeroOutK : FVec Ideal S50000x1 .f32 :=
  broadcastInDim S50000x1 ![] bcast_S_S50000x1 (constant (F := Ideal) S_ .f32 0x00000000#32)

/-- The one host operation after the region writes zeros into the first result. -/
theorem tail_v22 (c : Dev nD) : Pipeline.afterTail₀ cfgs (dats m) 0 (V0 m) [hostOps1] c main_v22 = zeroOutK := by
  unfold Pipeline.afterTail₀
  show StableHlo.after hostOps1 _ (Proc.devRef .tc main_v22) = _
  after_results
  rfl

/-- Every weakly fair execution ends with the first result at zeros, the second at the per-node function of the arrays
    the region found, and the arguments unchanged. -/
theorem run : θ_run defs (onTc (τ := τ) (main (F := Ideal))) ⟨m, fun _ => 0, ρ⟩ fun r => ∀ c : Dev nD,
      r.2.mem ((c.tc : Thread nD τ).loc main_v22) = zeroOutK
      ∧ r.2.mem ((c.tc : Thread nD τ).loc main_v21) = nodeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨
      ((h c).2 main_v22 (Pipeline.mem_restRefs_of main_v22 (by decide) (by decide))).trans (tail_v22 m c),
      ((h c).1 12).trans (final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).1 8).trans (((dats m 0 c).arrAt_in 8 rfl _).trans ((A_eq m c 8).trans (V_main_arg10 m c))),
      ((h c).2 main_arg11 (Pipeline.mem_restRefs_of main_arg11 (by decide) (by decide))).trans (W_main_arg11 m (dats m) c),
      ((h c).1 10).trans (((dats m 0 c).arrAt_in 10 rfl _).trans ((A_eq m c 10).trans (V_main_arg12 m c))),
      ((h c).2 main_arg13 (Pipeline.mem_restRefs_of main_arg13 (by decide) (by decide))).trans (W_main_arg13 m (dats m) c)⟩)
    (run_main m ρ)

end Cert.KernelIdeal.Hand

end
-- ==== Proof.RefTerm.lean ====
/-
  The reference program's result as ONE term of its argument arrays, cut where the mathematics cuts it:
  the node rows with the time appended (`xtR`), the sum over each node's incoming edges of the source rows
  (`aggR`: a gather of rows at the edges' sources, wrapped when negative, scatter-added at the edges'
  destinations into zeros), and the multi-layer perceptron on `xt + agg` (`mlpR`).  These are the reference's own
  operations in its own order; nothing is rearranged.
-/
import proofs.«175735_j17411797418333_1_alg».proof.ReferenceIdeal

noncomputable section

namespace Cert.ReferenceIdeal.Hand

open Cert.ReferenceIdeal Idealize.ShloMosaic Idealize.SL.Sem

variable {F : FTy → Type} [FloatOps F] [Facts]
open Facts₀ Facts

/-- The node features with the node's time appended as a 129th column. -/
def xtR (x : FVec F S50000x128 .f32) (t : FVec F S50000 .f32) : FVec F S50000x129 .f32 :=
  concatenate S50000x129 1 [⟨S50000x128, x⟩, ⟨S50000x1, broadcastInDim S50000x1 ![0] bcast_S50000_S50000x1_0 t⟩]
    concatenates_S50000x128_S50000x1_S50000x129_d1

/-- The edges' source nodes: row 0 of the edge list. -/
def srcR (ei : IVec S2x800000 32) : IVec S800000 32 :=
  shapeCast S800000 (extractStridedSlice S1x800000 ![0, 0] ei slices_S2x800000_S1x800000_0_0) shapeCasts_S1x800000_S800000

/-- The edges' destination nodes: row 1 of the edge list. -/
def dstR (ei : IVec S2x800000 32) : IVec S800000 32 :=
  shapeCast S800000 (extractStridedSlice S1x800000 ![1, 0] ei slices_S2x800000_S1x800000_1_0) shapeCasts_S1x800000_S800000

/-- Each node's sum of its in-neighbours' rows: the rows gathered at the edges' sources (a negative source counted
    from the end), scatter-added at the edges' destinations into a zero array. -/
def aggR (xt : FVec F S50000x129 .f32) (ei : IVec S2x800000 32) : FVec F S50000x129 .f32 :=
  Host.scatterAdd scatter_S50000x129_S800000x1_S800000x129_1_0_0_1
    (broadcastInDim S50000x129 ![] bcast_S_S50000x129 (constant S_ .f32 0x00000000#32))
    (broadcastInDim S800000x1 ![0] bcast_S800000_S800000x1_0 (dstR ei))
    (Host.gather gather_S50000x129_S800000x1_S800000x129_1_0_n_n_0_1_1129 xt
      (broadcastInDim S800000x1 ![0] bcast_S800000_S800000x1_0
        (select (cmpi .slt (srcR ei) (broadcastInDim S800000 ![] bcast_S_S800000 (constantI S_ 32 0#32)))
          (addi (srcR ei) (broadcastInDim S800000 ![] bcast_S_S800000 (constantI S_ 32 50000#32)))
          (srcR ei))))

/-- A bias vector laid along every node's row. -/
def biasR (b : FVec F S128 .f32) : FVec F S50000x128 .f32 :=
  broadcastInDim S50000x128 ![0, 1] bcast_S1x128_S50000x128_0_1 (broadcastInDim S1x128 ![1] bcast_S128_S1x128_1 b)

/-- The zero array the rectifiers compare with. -/
def zerosR : FVec F S50000x128 .f32 :=
  broadcastInDim S50000x128 ![] bcast_S_S50000x128 (constant S_ .f32 0x00000000#32)

/-- `max · 0`, entry by entry. -/
def reluR (a : FVec F S50000x128 .f32) : FVec F S50000x128 .f32 := maximumf a zerosR

/-- The leaky rectifier of slope f32(0.2), entry by entry. -/
def leakyR (a : FVec F S50000x128 .f32) : FVec F S50000x128 .f32 :=
  select (cmpf .oge a zerosR) a
    (mulf (broadcastInDim S50000x128 ![] bcast_S_S50000x128 (id (constant S_ .f32 0x3E4CCCCD#32))) a)

/-- The second hidden layer, rectified: what is laid beside the node rows. -/
def hidR (xt agg : FVec F S50000x129 .f32) (W1 : FVec F S129x128 .f32) (b1 : FVec F S128 .f32)
    (W2 : FVec F S128x128 .f32) (b2 : FVec F S128 .f32) : FVec F S50000x128 .f32 :=
  reluR (Host.tanh (addf (Host.dotGeneral dot_S50000x128_S128x128_S50000x128_1_0_0_1_n_n none
    (reluR (addf (Host.dotGeneral dot_S50000x129_S129x128_S50000x128_1_0_0_1_n_n none (addf xt agg) W1) (biasR b1))) W2) (biasR b2)))

/-- The predictor on the hidden layer beside the node rows. -/
def mlpR (xt agg : FVec F S50000x129 .f32) (W1 : FVec F S129x128 .f32) (b1 : FVec F S128 .f32)
    (W2 : FVec F S128x128 .f32) (b2 : FVec F S128 .f32) (P1 : FVec F S257x128 .f32) (pb1 : FVec F S128 .f32)
    (P2 : FVec F S128x128 .f32) (pb2 : FVec F S128 .f32) (P3 : FVec F S128x1 .f32) (pb3 : FVec F S1 .f32) :
    FVec F S50000x1 .f32 :=
  addf (Host.dotGeneral dot_S50000x128_S128x1_S50000x1_1_0_0_1_n_n none
      (leakyR (addf (Host.dotGeneral dot_S50000x128_S128x128_S50000x128_1_0_0_1_n_n none
        (leakyR (addf (Host.dotGeneral dot_S50000x257_S257x128_S50000x128_1_0_0_1_n_n none
          (concatenate S50000x257 1 [⟨S50000x128, hidR xt agg W1 b1 W2 b2⟩, ⟨S50000x129, xt⟩]
            concatenates_S50000x128_S50000x129_S50000x257_d1) P1) (biasR pb1))) P2) (biasR pb2))) P3)
    (broadcastInDim S50000x1 ![0, 1] bcast_S1x1_S50000x1_0_1 (broadcastInDim S1x1 ![1] bcast_S1_S1x1_1 pb3))

/-- The reference's first result: zeros. -/
def zeroOutR : FVec F S50000x1 .f32 :=
  broadcastInDim S50000x1 ![] bcast_S_S50000x1 (constant S_ .f32 0x00000000#32)

end Cert.ReferenceIdeal.Hand

end
-- ==== Proof.RefRun.lean ====
/-
  The reference program's run.  Once its four calls are read at their call sites (two of the rectifier
  `max · 0`, two of the leaky rectifier, which itself calls the three-way choice), the reference is a straight
  line of sixty-six array operations, each call's operations over that call's own buffers in the callee's order.
  The line is cut where the mathematics cuts it: the first thirty-five operations end at the hidden layer, laid
  out from the node rows `xtR` and the neighbour sums `aggR`; the remaining thirty-one are the predictor on the
  hidden layer beside the node rows, whatever those two arrays hold, and the zero result.  Every weakly fair
  execution terminates; the second result then holds `mlpR` of the argument arrays as they were at launch, the
  first holds zeros, and the fourteen arguments are unchanged.
-/
import proofs.«175735_j17411797418333_1_alg».proof.Proof.Gen.ReferenceIdeal
import proofs.«175735_j17411797418333_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The line -/

/-- The first thirty-five operations, up to the hidden layer: the node rows with the time appended (two); the
    two rows of the edge list (four); the sources, wrapped when negative (eight); the rows gathered at the
    sources and scatter-added at the destinations into zeros (five); the first dense layer on the sum (five) and
    its rectifier (three: the zero, its array, the maximum); the second dense layer with `tanh` (five) and its
    rectifier (three). -/
abbrev opsHid : List (HloOp τ sig (Elt F)) :=
  [ unary main_arg1 main_v0 (broadcastInDim S50000x1 ![0] bcast_S50000_S50000x1_0),
    binary main_arg0 main_v0 main_v1
      (fun a b => concatenate S50000x129 1 [⟨S50000x128, a⟩, ⟨S50000x1, b⟩] concatenates_S50000x128_S50000x1_S50000x129_d1),
    unary main_arg3 main_v2 (extractStridedSlice S1x800000 ![0, 0] · slices_S2x800000_S1x800000_0_0),
    reshape main_v2 main_v3 rfl shapeCasts_S1x800000_S800000,
    unary main_arg3 main_v4 (extractStridedSlice S1x800000 ![1, 0] · slices_S2x800000_S1x800000_1_0),
    reshape main_v4 main_v5 rfl shapeCasts_S1x800000_S800000,
    nullary main_c (constantI S_ 32 0#32),
    unary main_c main_v6 (broadcastInDim S800000 ![] bcast_S_S800000),
    binary main_v3 main_v6 main_v7 (cmpi .slt),
    nullary main_c_0 (constantI S_ 32 50000#32),
    unary main_c_0 main_v8 (broadcastInDim S800000 ![] bcast_S_S800000),
    binary main_v3 main_v8 main_v9 addi,
    ternary main_v7 main_v9 main_v3 main_v10 select,
    unary main_v10 main_v11 (broadcastInDim S800000x1 ![0] bcast_S800000_S800000x1_0),
    binary main_v1 main_v11 main_v12
      (fun x i => Host.gather gather_S50000x129_S800000x1_S800000x129_1_0_n_n_0_1_1129 x i),
    nullary main_cst (constant S_ .f32 0x00000000#32),
    unary main_cst main_v13 (broadcastInDim S50000x129 ![] bcast_S_S50000x129),
    unary main_v5 main_v14 (broadcastInDim S800000x1 ![0] bcast_S800000_S800000x1_0),
    ternary main_v13 main_v14 main_v12 main_v15
      (fun x i u => Host.scatterAdd scatter_S50000x129_S800000x1_S800000x129_1_0_0_1 x i u),
    binary main_v1 main_v15 main_v16 addf,
    binary main_v16 main_arg4 main_v17
      (fun l r => Host.dotGeneral dot_S50000x129_S129x128_S50000x128_1_0_0_1_n_n none l r),
    unary main_arg5 main_v18 (broadcastInDim S1x128 ![1] bcast_S128_S1x128_1),
    unary main_v18 main_v19 (broadcastInDim S50000x128 ![0, 1] bcast_S1x128_S50000x128_0_1),
    binary main_v17 main_v19 main_v20 addf,
    TRef.nullary main_call0.cst (constant S_ .f32 0x00000000#32),
    TRef.unary main_call0.cst main_call0.v0 (broadcastInDim S50000x128 ![] bcast_S_S50000x128),
    TRef.binary (.of main_v20) main_call0.v0 main_call0.v1 maximumf,
    binary main_v21 main_arg6 main_v22
      (fun l r => Host.dotGeneral dot_S50000x128_S128x128_S50000x128_1_0_0_1_n_n none l r),
    unary main_arg7 main_v23 (broadcastInDim S1x128 ![1] bcast_S128_S1x128_1),
    unary main_v23 main_v24 (broadcastInDim S50000x128 ![0, 1] bcast_S1x128_S50000x128_0_1),
    binary main_v22 main_v24 main_v25 addf,
    unary main_v25 main_v26 Host.tanh,
    TRef.nullary main_call1.cst (constant S_ .f32 0x00000000#32),
    TRef.unary main_call1.cst main_call1.v0 (broadcastInDim S50000x128 ![] bcast_S_S50000x128),
    TRef.binary (.of main_v26) main_call1.v0 main_call1.v1 maximumf ]

/-- The remaining thirty-one: the hidden layer laid beside the node rows (one); the predictor's first dense
    layer (four), the slope and the leaky rectifier (one and seven: the zero, its array, the comparison, the
    slope at its own type, its array, the product, the choice); the second dense layer (four), slope and leaky
    rectifier (one and seven); the third dense layer onto one column (four); the zero result (two). -/
abbrev opsPred : List (HloOp τ sig (Elt F)) :=
  [ binary main_v27 main_v1 main_v28
      (fun a b => concatenate S50000x257 1 [⟨S50000x128, a⟩, ⟨S50000x129, b⟩] concatenates_S50000x128_S50000x129_S50000x257_d1),
    binary main_v28 main_arg8 main_v29
      (fun l r => Host.dotGeneral dot_S50000x257_S257x128_S50000x128_1_0_0_1_n_n none l r),
    unary main_arg9 main_v30 (broadcastInDim S1x128 ![1] bcast_S128_S1x128_1),
    unary main_v30 main_v31 (broadcastInDim S50000x128 ![0, 1] bcast_S1x128_S50000x128_0_1),
    binary main_v29 main_v31 main_v32 addf,
    nullary main_cst_1 (constant S_ .f32 0x3E4CCCCD#32),
    TRef.nullary main_call2.cst (constant S_ .f32 0x00000000#32),
    TRef.unary main_call2.cst main_call2.v0 (broadcastInDim S50000x128 ![] bcast_S_S50000x128),
    TRef.binary (.of main_v32) main_call2.v0 main_call2.v1 (cmpf .oge),
    TRef.unary (.of main_cst_1) main_call2.v2 id,
    TRef.unary main_call2.v2 main_call2.v3 (broadcastInDim S50000x128 ![] bcast_S_S50000x128),
    TRef.binary main_call2.v3 (.of main_v32) main_call2.v4 mulf,
    TRef.ternary main_call2.v1 (.of main_v32) main_call2.v4 main_call2.call0.v0 select,
    binary main_v33 main_arg10 main_v34
      (fun l r => Host.dotGeneral dot_S50000x128_S128x128_S50000x128_1_0_0_1_n_n none l r),
    unary main_arg11 main_v35 (broadcastInDim S1x128 ![1] bcast_S128_S1x128_1),
    unary main_v35 main_v36 (broadcastInDim S50000x128 ![0, 1] bcast_S1x128_S50000x128_0_1),
    binary main_v34 main_v36 main_v37 addf,
    nullary main_cst_2 (constant S_ .f32 0x3E4CCCCD#32),
    TRef.nullary main_call3.cst (constant S_ .f32 0x00000000#32),
    TRef.unary main_call3.cst main_call3.v0 (broadcastInDim S50000x128 ![] bcast_S_S50000x128),
    TRef.binary (.of main_v37) main_call3.v0 main_call3.v1 (cmpf .oge),
    TRef.unary (.of main_cst_2) main_call3.v2 id,
    TRef.unary main_call3.v2 main_call3.v3 (broadcastInDim S50000x128 ![] bcast_S_S50000x128),
    TRef.binary main_call3.v3 (.of main_v37) main_call3.v4 mulf,
    TRef.ternary main_call3.v1 (.of main_v37) main_call3.v4 main_call3.call0.v0 select,
    binary main_v38 main_arg12 main_v39
      (fun l r => Host.dotGeneral dot_S50000x128_S128x1_S50000x1_1_0_0_1_n_n none l r),
    unary main_arg13 main_v40 (broadcastInDim S1x1 ![1] bcast_S1_S1x1_1),
    unary main_v40 main_v41 (broadcastInDim S50000x1 ![0, 1] bcast_S1x1_S50000x1_0_1),
    binary main_v39 main_v41 main_v42 addf,
    nullary main_cst_3 (constant S_ .f32 0x00000000#32),
    unary main_cst_3 main_v43 (broadcastInDim S50000x1 ![] bcast_S_S50000x1) ]

/-- The whole line: the two stretches one after the other. -/
abbrev ops : List (HloOp τ sig (Elt F)) := opsHid ++ opsPred

set_option maxRecDepth 8192 in
set_option maxHeartbeats 1000000 in
/-- The program is that line: with the called functions' bodies put at their calls, both sides are one chain of
    the same sixty-six steps. -/
theorem main_eq (c : Dev nD) : main (F := F) c = seq ops := by
  unfold main fn_relu.body fn_leaky_relu.body fn_where.body
  rfl

/-- The reference has tensor values only: no buffer and no semaphore of it is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only, stretch by stretch. -/
theorem hid_sub : (opsHid : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., nullary_bufs_sub .., unary_bufs_sub .., binary_bufs_sub ..⟩

theorem pred_sub : (opsPred : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    unary_bufs_sub ..⟩

theorem ops_sub : (ops : List (HloOp τ sig (Elt F))).Forall fun op => op.bufs ⊆ tcRefs τ sig :=
  List.forall_iff_forall_mem.2 fun op h => (List.mem_append.1 h).elim
    (List.forall_iff_forall_mem.1 hid_sub op) (List.forall_iff_forall_mem.1 pred_sub op)

/-- Every operation determines what it writes. -/
theorem hid_fresh : ∀ op ∈ (opsHid : List (HloOp τ sig (Elt F))), op.fresh = ∅ := by
  intro _ h; (repeat (cases h with | head => rfl | tail _ h => ?_)); exact nomatch h

theorem pred_fresh : ∀ op ∈ (opsPred : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  fun op h => (List.mem_append.1 h).elim (hid_fresh op) (pred_fresh op)

/-! ## What the buffers hold after the line -/

/-- Two stretches run one after the other: the second runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

section Hid

-- The gather, the scatter-add, `tanh` and the layout operations are kept folded: each equation below is between
-- the same applications of them on both sides and never looks inside one.
attribute [local irreducible] Host.gather Host.scatterAdd Host.tanh concatenate broadcastInDim extractStridedSlice shapeCast

set_option maxRecDepth 8192 in
/-- After the first stretch the node rows' buffer holds the features with the time appended. -/
theorem hid_xt (V : Valuation τ sig (Elt F)) :
    after opsHid V (main_v1 : DevRef τ sig) = xtR (V (main_arg0 : DevRef τ sig)) (V (main_arg1 : DevRef τ sig)) := by
  simp only [after_cons, after_nil]
  rfl

set_option maxRecDepth 8192 in
/-- After the first stretch the second rectifier's buffer holds the hidden layer of the node rows and of the
    neighbour sums: the operations' own composition, each read at the buffer the next one names. -/
theorem hid_hid (V : Valuation τ sig (Elt F)) :
    after opsHid V (main_v27 : DevRef τ sig)
      = hidR (xtR (V (main_arg0 : DevRef τ sig)) (V (main_arg1 : DevRef τ sig)))
          (aggR (xtR (V (main_arg0 : DevRef τ sig)) (V (main_arg1 : DevRef τ sig))) (V (main_arg3 : DevRef τ sig)))
          (V (main_arg4 : DevRef τ sig)) (V (main_arg5 : DevRef τ sig)) (V (main_arg6 : DevRef τ sig))
          (V (main_arg7 : DevRef τ sig)) := by
  simp only [after_cons, after_nil]
  rfl

/-- The first stretch writes none of the predictor's weights. -/
theorem hid_arg8 (V : Valuation τ sig (Elt F)) :
    after opsHid V (main_arg8 : DevRef τ sig) = V (main_arg8 : DevRef τ sig) := by
  simp only [after_cons, after_nil]; rfl
theorem hid_arg9 (V : Valuation τ sig (Elt F)) :
    after opsHid V (main_arg9 : DevRef τ sig) = V (main_arg9 : DevRef τ sig) := by
  simp only [after_cons, after_nil]; rfl
theorem hid_arg10 (V : Valuation τ sig (Elt F)) :
    after opsHid V (main_arg10 : DevRef τ sig) = V (main_arg10 : DevRef τ sig) := by
  simp only [after_cons, after_nil]; rfl
theorem hid_arg11 (V : Valuation τ sig (Elt F)) :
    after opsHid V (main_arg11 : DevRef τ sig) = V (main_arg11 : DevRef τ sig) := by
  simp only [after_cons, after_nil]; rfl
theorem hid_arg12 (V : Valuation τ sig (Elt F)) :
    after opsHid V (main_arg12 : DevRef τ sig) = V (main_arg12 : DevRef τ sig) := by
  simp only [after_cons, after_nil]; rfl
theorem hid_arg13 (V : Valuation τ sig (Elt F)) :
    after opsHid V (main_arg13 : DevRef τ sig) = V (main_arg13 : DevRef τ sig) := by
  simp only [after_cons, after_nil]; rfl

set_option maxRecDepth 8192 in
/-- From ANY contents, the second stretch leaves in the last sum's buffer the predictor of what the hidden
    layer's and the node rows' buffers held.  Each leaky rectifier names its argument three times; with the two
    arrays it starts from left as they are, the nine readings of the first dense layer are nine readings of one
    short term. -/
theorem pred_out (W : Valuation τ sig (Elt F)) :
    after opsPred W (main_v42 : DevRef τ sig)
      = addf (Host.dotGeneral dot_S50000x128_S128x1_S50000x1_1_0_0_1_n_n none
          (leakyR (addf (Host.dotGeneral dot_S50000x128_S128x128_S50000x128_1_0_0_1_n_n none
            (leakyR (addf (Host.dotGeneral dot_S50000x257_S257x128_S50000x128_1_0_0_1_n_n none
              (concatenate S50000x257 1
                [⟨S50000x128, W (main_v27 : DevRef τ sig)⟩, ⟨S50000x129, W (main_v1 : DevRef τ sig)⟩]
                concatenates_S50000x128_S50000x129_S50000x257_d1)
              (W (main_arg8 : DevRef τ sig))) (biasR (W (main_arg9 : DevRef τ sig)))))
            (W (main_arg10 : DevRef τ sig))) (biasR (W (main_arg11 : DevRef τ sig)))))
          (W (main_arg12 : DevRef τ sig)))
        (broadcastInDim S50000x1 ![0, 1] bcast_S1x1_S50000x1_0_1
          (broadcastInDim S1x1 ![1] bcast_S1_S1x1_1 (W (main_arg13 : DevRef τ sig)))) := by
  simp only [after_cons, after_nil]
  rfl

set_option maxRecDepth 8192 in
/-- From any contents, the second stretch leaves zeros in the first result's buffer. -/
theorem pred_zero (W : Valuation τ sig (Elt F)) : after opsPred W (main_v43 : DevRef τ sig) = zeroOutR := by
  simp only [after_cons, after_nil]
  rfl

end Hid

/-- The second result: the first stretch's hidden layer and node rows, and the weights it leaves alone, put into
    the second stretch's predictor, are the reference's term by its definition. -/
theorem out_eq (V : Valuation τ sig (Elt F)) :
    after ops V (main_v42 : DevRef τ sig)
      = mlpR (xtR (V (main_arg0 : DevRef τ sig)) (V (main_arg1 : DevRef τ sig)))
          (aggR (xtR (V (main_arg0 : DevRef τ sig)) (V (main_arg1 : DevRef τ sig))) (V (main_arg3 : DevRef τ sig)))
          (V (main_arg4 : DevRef τ sig)) (V (main_arg5 : DevRef τ sig)) (V (main_arg6 : DevRef τ sig))
          (V (main_arg7 : DevRef τ sig)) (V (main_arg8 : DevRef τ sig)) (V (main_arg9 : DevRef τ sig))
          (V (main_arg10 : DevRef τ sig)) (V (main_arg11 : DevRef τ sig)) (V (main_arg12 : DevRef τ sig))
          (V (main_arg13 : DevRef τ sig)) := by
  rw [after_append, pred_out, hid_hid, hid_xt, hid_arg8, hid_arg9, hid_arg10, hid_arg11, hid_arg12, hid_arg13]
  rfl

/-- The first result. -/
theorem zero_eq (V : Valuation τ sig (Elt F)) : after ops V (main_v43 : DevRef τ sig) = zeroOutR := by
  rw [after_append, pred_zero]

set_option maxRecDepth 8192 in
/-- No operation of the line writes an argument. -/
theorem arg0_eq (V : Valuation τ sig (Elt F)) : after ops V (main_arg0 : DevRef τ sig) = V (main_arg0 : DevRef τ sig) := by
  rw [after_append]; simp only [after_cons, after_nil]; rfl
set_option maxRecDepth 8192 in
theorem arg1_eq (V : Valuation τ sig (Elt F)) : after ops V (main_arg1 : DevRef τ sig) = V (main_arg1 : DevRef τ sig) := by
  rw [after_append]; simp only [after_cons, after_nil]; rfl
set_option maxRecDepth 8192 in
theorem arg2_eq (V : Valuation τ sig (Elt F)) : after ops V (main_arg2 : DevRef τ sig) = V (main_arg2 : DevRef τ sig) := by
  rw [after_append]; simp only [after_cons, after_nil]; rfl
set_option maxRecDepth 8192 in
theorem arg3_eq (V : Valuation τ sig (Elt F)) : after ops V (main_arg3 : DevRef τ sig) = V (main_arg3 : DevRef τ sig) := by
  rw [after_append]; simp only [after_cons, after_nil]; rfl
set_option maxRecDepth 8192 in
theorem arg4_eq (V : Valuation τ sig (Elt F)) : after ops V (main_arg4 : DevRef τ sig) = V (main_arg4 : DevRef τ sig) := by
  rw [after_append]; simp only [after_cons, after_nil]; rfl
set_option maxRecDepth 8192 in
theorem arg5_eq (V : Valuation τ sig (Elt F)) : after ops V (main_arg5 : DevRef τ sig) = V (main_arg5 : DevRef τ sig) := by
  rw [after_append]; simp only [after_cons, after_nil]; rfl
set_option maxRecDepth 8192 in
theorem arg6_eq (V : Valuation τ sig (Elt F)) : after ops V (main_arg6 : DevRef τ sig) = V (main_arg6 : DevRef τ sig) := by
  rw [after_append]; simp only [after_cons, after_nil]; rfl
set_option maxRecDepth 8192 in
theorem arg7_eq (V : Valuation τ sig (Elt F)) : after ops V (main_arg7 : DevRef τ sig) = V (main_arg7 : DevRef τ sig) := by
  rw [after_append]; simp only [after_cons, after_nil]; rfl
set_option maxRecDepth 8192 in
theorem arg8_eq (V : Valuation τ sig (Elt F)) : after ops V (main_arg8 : DevRef τ sig) = V (main_arg8 : DevRef τ sig) := by
  rw [after_append]; simp only [after_cons, after_nil]; rfl
set_option maxRecDepth 8192 in
theorem arg9_eq (V : Valuation τ sig (Elt F)) : after ops V (main_arg9 : DevRef τ sig) = V (main_arg9 : DevRef τ sig) := by
  rw [after_append]; simp only [after_cons, after_nil]; rfl
set_option maxRecDepth 8192 in
theorem arg10_eq (V : Valuation τ sig (Elt F)) : after ops V (main_arg10 : DevRef τ sig) = V (main_arg10 : DevRef τ sig) := by
  rw [after_append]; simp only [after_cons, after_nil]; rfl
set_option maxRecDepth 8192 in
theorem arg11_eq (V : Valuation τ sig (Elt F)) : after ops V (main_arg11 : DevRef τ sig) = V (main_arg11 : DevRef τ sig) := by
  rw [after_append]; simp only [after_cons, after_nil]; rfl
set_option maxRecDepth 8192 in
theorem arg12_eq (V : Valuation τ sig (Elt F)) : after ops V (main_arg12 : DevRef τ sig) = V (main_arg12 : DevRef τ sig) := by
  rw [after_append]; simp only [after_cons, after_nil]; rfl
set_option maxRecDepth 8192 in
theorem arg13_eq (V : Valuation τ sig (Elt F)) : after ops V (main_arg13 : DevRef τ sig) = V (main_arg13 : DevRef τ sig) := by
  rw [after_append]; simp only [after_cons, after_nil]; rfl

/-! ## The run -/

/-- On the one device, for any float values, from any memory with zero counters: every weakly fair execution of
    the reference terminates with zeros in its first result, the perceptron of the node rows and the neighbour
    sums of the launch contents in its second, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = zeroOutR
      ∧ r.2.mem ((c.tc : Thread nD τ).loc main_v42)
          = mlpR (xtR (m ((c.tc : Thread nD τ).loc main_arg0)) (m ((c.tc : Thread nD τ).loc main_arg1)))
              (aggR (xtR (m ((c.tc : Thread nD τ).loc main_arg0)) (m ((c.tc : Thread nD τ).loc main_arg1))) (m ((c.tc : Thread nD τ).loc main_arg3)))
              (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9))
              (m ((c.tc : Thread nD τ).loc main_arg10)) (m ((c.tc : Thread nD τ).loc main_arg11)) (m ((c.tc : Thread nD τ).loc main_arg12))
              (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v43).trans (zero_eq _), (h c main_v42).trans (out_eq _),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _), (h c main_arg8).trans (arg8_eq _),
        (h c main_arg9).trans (arg9_eq _), (h c main_arg10).trans (arg10_eq _), (h c main_arg11).trans (arg11_eq _),
        (h c main_arg12).trans (arg12_eq _), (h c main_arg13).trans (arg13_eq _)⟩)
    (run_seq scopedRefs_eq scopedSems_eq defs main (fun _ => ops) main_eq (fun _ => ops_sub) m ρ (fun _ => ops_fresh))

end Cert.ReferenceIdeal.Hand

end
-- ==== Proof.KerHost.lean ====
/-
  The arrays the kernel region finds, as terms of the program's arguments: the node rows with the time appended,
  the neighbour sums (a gather of rows scatter-added at the edges' destinations), and each bias vector as a one-row
  matrix.  They are the host operations before the region, read back in order; nothing is computed here.
-/
import proofs.«175735_j17411797418333_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The node features with the node's time appended as a 129th column. -/
def xtK (x : FVec F S50000x128 .f32) (t : FVec F S50000 .f32) : FVec F S50000x129 .f32 :=
  concatenate S50000x129 1 [⟨S50000x128, x⟩, ⟨S50000x1, broadcastInDim S50000x1 ![0] bcast_S50000_S50000x1_0 t⟩]
    concatenates_S50000x128_S50000x1_S50000x129_d1

/-- The edges' source nodes: row 0 of the edge list. -/
def srcK (ei : IVec S2x800000 32) : IVec S800000 32 :=
  shapeCast S800000 (extractStridedSlice S1x800000 ![0, 0] ei slices_S2x800000_S1x800000_0_0) shapeCasts_S1x800000_S800000

/-- The edges' destination nodes: row 1 of the edge list. -/
def dstK (ei : IVec S2x800000 32) : IVec S800000 32 :=
  shapeCast S800000 (extractStridedSlice S1x800000 ![1, 0] ei slices_S2x800000_S1x800000_1_0) shapeCasts_S1x800000_S800000

/-- Each node's sum of its in-neighbours' rows. -/
def aggK (xt : FVec F S50000x129 .f32) (ei : IVec S2x800000 32) : FVec F S50000x129 .f32 :=
  Host.scatterAdd scatter_S50000x129_S800000x1_S800000x129_1_0_0_1
    (broadcastInDim S50000x129 ![] bcast_S_S50000x129 (constant S_ .f32 0x00000000#32))
    (broadcastInDim S800000x1 ![0] bcast_S800000_S800000x1_0 (dstK ei))
    (Host.gather gather_S50000x129_S800000x1_S800000x129_1_0_n_n_0_1_1129 xt
      (broadcastInDim S800000x1 ![0] bcast_S800000_S800000x1_0
        (select (cmpi .slt (srcK ei) (broadcastInDim S800000 ![] bcast_S_S800000 (constantI S_ 32 0#32)))
          (addi (srcK ei) (broadcastInDim S800000 ![] bcast_S_S800000 (constantI S_ 32 50000#32)))
          (srcK ei))))

variable (m : (ℓ : Loc nD τ sig) → Buf (Elt F) ℓ)

theorem V_v1 (c : Dev nD) : V m c main_v1 = xtK (m ((c : Thread nD τ).loc main_arg0)) (m ((c : Thread nD τ).loc main_arg1)) := by
  show StableHlo.after hostOps0 (fun b => m (c, b)) (Proc.devRef .tc main_v1) = _
  after_results
  rfl

set_option maxHeartbeats 4000000 in
theorem V_v15 (c : Dev nD) : V m c main_v15
    = aggK (xtK (m ((c : Thread nD τ).loc main_arg0)) (m ((c : Thread nD τ).loc main_arg1))) (m ((c : Thread nD τ).loc main_arg3)) := by
  show StableHlo.after hostOps0 (fun b => m (c, b)) (Proc.devRef .tc main_v15) = _
  after_results
  rfl

/-- A bias vector as the region finds it: a one-row matrix. -/
theorem V_v16 (c : Dev nD) : V m c main_v16 = shapeCast S1x128 (m ((c : Thread nD τ).loc main_arg5)) shapeCasts_S128_S1x128 := by
  show StableHlo.after hostOps0 (fun b => m (c, b)) (Proc.devRef .tc main_v16) = _
  after_results
  rfl

theorem V_v17 (c : Dev nD) : V m c main_v17 = shapeCast S1x128 (m ((c : Thread nD τ).loc main_arg7)) shapeCasts_S128_S1x128 := by
  show StableHlo.after hostOps0 (fun b => m (c, b)) (Proc.devRef .tc main_v17) = _
  after_results
  rfl

theorem V_v18 (c : Dev nD) : V m c main_v18 = shapeCast S1x128 (m ((c : Thread nD τ).loc main_arg9)) shapeCasts_S128_S1x128 := by
  show StableHlo.after hostOps0 (fun b => m (c, b)) (Proc.devRef .tc main_v18) = _
  after_results
  rfl

theorem V_v19 (c : Dev nD) : V m c main_v19 = shapeCast S1x128 (m ((c : Thread nD τ).loc main_arg11)) shapeCasts_S128_S1x128 := by
  show StableHlo.after hostOps0 (fun b => m (c, b)) (Proc.devRef .tc main_v19) = _
  after_results
  rfl

theorem V_v20 (c : Dev nD) : V m c main_v20 = shapeCast S1x1 (m ((c : Thread nD τ).loc main_arg13)) shapeCasts_S1_S1x1 := by
  show StableHlo.after hostOps0 (fun b => m (c, b)) (Proc.devRef .tc main_v20) = _
  after_results
  rfl

end Cert.KernelIdeal.Hand

end
-- ==== Proof.RefDots.lean ====
/-
  A matrix product read at one entry.

  Every product of the reference contracts the left operand's second axis against the right operand's first axis,
  with no batch axis: an `M × K` array times a `K × N` array.  For such dimension numbers the left operand's index at
  result entry `(p, j)` and contraction position `k` is `(p, k)` and the right operand's is `(k, j)`, so the entry is
  `∑ k, l (p, k) · w (k, j)`.  This is shown once for all extents and then read off for the reference's four records.
-/
import proofs.«175735_j17411797418333_1_alg».proof.Proof.Gen.ReferenceIdeal
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- Rows-by-columns dimension numbers: the left operand's axis 1 contracted against the right operand's axis 0, the
    result's axes the left operand's axis 0 and then the right operand's axis 1. -/
abbrev rc {M K N : Nat} (wf : DotDims.WF (⟨2, ![M, K]⟩ : Shape) ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section Plain
variable {M K N : Nat} (wf : DotDims.WF (⟨2, ![M, K]⟩ : Shape) ⟨2, ![K, N]⟩ ⟨2, ![M, N]⟩ [1] [0] [0] [1] [] [])

/-- The left operand's row coordinate is the result's row coordinate: axis 0 is the left operand's one free axis and
    comes first among the result's axes. -/
theorem rc_lhs_0 (i : (⟨2, ![M, N]⟩ : Shape).Idx) (q : (rc wf).contr.Idx) : ((rc wf).lhsIdx i q 0).val = (i 0).val := by
  unfold DotDims.lhsIdx
  rw [dif_neg (show ¬(0 : Fin 2) ∈ (rc wf).lhsBatch from List.not_mem_nil),
    dif_pos (show (0 : Fin 2) ∈ (rc wf).lhsNonContracting from List.mem_singleton.mpr rfl)]
  rfl

/-- The left operand's column coordinate is the contraction position. -/
theorem rc_lhs_1 (i : (⟨2, ![M, N]⟩ : Shape).Idx) (q : (rc wf).contr.Idx) :
    ((rc wf).lhsIdx i q 1).val = (q ⟨0, Nat.one_pos⟩).val := (rc wf).lhsIdx_val_of_single rfl i q

/-- The right operand's row coordinate is the contraction position. -/
theorem rc_rhs_0 (i : (⟨2, ![M, N]⟩ : Shape).Idx) (q : (rc wf).contr.Idx) :
    ((rc wf).rhsIdx i q 0).val = (q ⟨0, Nat.one_pos⟩).val := (rc wf).rhsIdx_val_of_single rfl i q

/-- The right operand's column coordinate is the result's column coordinate: axis 1 is the right operand's one free
    axis and comes after the left operand's among the result's axes. -/
theorem rc_rhs_1 (i : (⟨2, ![M, N]⟩ : Shape).Idx) (q : (rc wf).contr.Idx) : ((rc wf).rhsIdx i q 1).val = (i 1).val := by
  unfold DotDims.rhsIdx
  rw [dif_neg (show ¬(1 : Fin 2) ∈ (rc wf).rhsBatch from List.not_mem_nil),
    dif_pos (show (1 : Fin 2) ∈ (rc wf).rhsNonContracting from List.mem_singleton.mpr rfl)]
  rfl

/-- The product at row `p`, column `j`: the sum over the shared axis of row `p` of the left operand against column
    `j` of the right operand.  The sum over the one-axis contraction index set is re-indexed by that axis's coordinate. -/
theorem rc_apply (l : FVec Ideal ⟨2, ![M, K]⟩ .f32) (w : FVec Ideal ⟨2, ![K, N]⟩ .f32) (p : Fin M) (j : Fin N) :
    Host.dotGeneral (rc wf) none l w (ix2 p j) = ∑ k : Fin K, l (ix2 p k) * w (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 p j) ((contrEquiv1 (rc wf) K rfl rfl).symm k) = ix2 p k :=
    funext fun a => Fin.ext (by
      match a with
      | ⟨0, _⟩ => exact rc_lhs_0 wf _ _
      | ⟨1, _⟩ => exact (rc_lhs_1 wf _ _).trans hk)
  have er : (rc wf).rhsIdx (ix2 p j) ((contrEquiv1 (rc wf) K rfl rfl).symm k) = ix2 k j :=
    funext fun a => Fin.ext (by
      match a with
      | ⟨0, _⟩ => exact (rc_rhs_0 wf _ _).trans hk
      | ⟨1, _⟩ => exact rc_rhs_1 wf _ _)
  rw [el, er]

end Plain

/-! The reference's four products: each record is `rc` at its extents. -/

/-- 129 inputs to 128 outputs. -/
theorem dot129_apply (l : FVec Ideal S50000x129 .f32) (w : FVec Ideal S129x128 .f32) (p : Fin 50000) (j : Fin 128) :
    Host.dotGeneral dot_S50000x129_S129x128_S50000x128_1_0_0_1_n_n none l w (ix2 p j)
      = ∑ k : Fin 129, l (ix2 p k) * w (ix2 k j) :=
  rc_apply _ l w p j

/-- 128 inputs to 128 outputs. -/
theorem dot128_apply (l : FVec Ideal S50000x128 .f32) (w : FVec Ideal S128x128 .f32) (p : Fin 50000) (j : Fin 128) :
    Host.dotGeneral dot_S50000x128_S128x128_S50000x128_1_0_0_1_n_n none l w (ix2 p j)
      = ∑ k : Fin 128, l (ix2 p k) * w (ix2 k j) :=
  rc_apply _ l w p j

/-- 257 inputs to 128 outputs. -/
theorem dot257_apply (l : FVec Ideal S50000x257 .f32) (w : FVec Ideal S257x128 .f32) (p : Fin 50000) (j : Fin 128) :
    Host.dotGeneral dot_S50000x257_S257x128_S50000x128_1_0_0_1_n_n none l w (ix2 p j)
      = ∑ k : Fin 257, l (ix2 p k) * w (ix2 k j) :=
  rc_apply _ l w p j

/-- 128 inputs to one output. -/
theorem dot128x1_apply (l : FVec Ideal S50000x128 .f32) (w : FVec Ideal S128x1 .f32) (p : Fin 50000) (j : Fin 1) :
    Host.dotGeneral dot_S50000x128_S128x1_S50000x1_1_0_0_1_n_n none l w (ix2 p j)
      = ∑ k : Fin 128, l (ix2 p k) * w (ix2 k j) :=
  rc_apply _ l w p j

end Cert.ReferenceIdeal.Hand

end
-- ==== Proof.RefLayers.lean ====
/-
  The reference's layers read row by row.

  Each array operation of the reference's perceptron acts on the node rows independently: a dense layer's output row
  is `dense W b` of the input row (the product's entry is the sum over the shared axis, the bias is laid along every
  row), the rectifiers and `tanh` act entry by entry, and the concatenation along the columns lays the two rows side
  by side.  Every lemma here holds for ANY input array, so they compose from the outside in.
-/
import proofs.«175735_j17411797418333_1_alg».proof.Proof.Gen.ReferenceIdeal
import proofs.«175735_j17411797418333_1_alg».proof.Proof.RefTerm
import proofs.«175735_j17411797418333_1_alg».proof.Proof.GinSpec
import proofs.«175735_j17411797418333_1_alg».proof.Proof.RefDots
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.Gin

/-! ## The biases -/

/-- A 128-entry bias laid along every node's row reads, at column `j` of any row, its own entry `j`: first through
    the broadcast of the one-row matrix down the rows, then through the vector's embedding as that one row. -/
theorem biasR_apply (b : FVec Ideal S128 .f32) (p : Fin 50000) (j : Fin 128) : biasR b (ix2 p j) = vec b j := by
  unfold biasR
  rw [broadcastInDim_apply _ _ _ (ix2 p j) (ix2 0 j) (fun a => by match a with | ⟨0, _⟩ => rfl | ⟨1, _⟩ => rfl),
    broadcastInDim_apply _ _ _ (ix2 0 j) (ix1 j) (fun a => by match a with | ⟨0, _⟩ => rfl)]
  rfl

/-- The last layer's one-entry bias reads that entry at every node. -/
theorem bias1_apply (b : FVec Ideal S1 .f32) (p : Fin 50000) :
    broadcastInDim S50000x1 ![0, 1] Facts₀.bcast_S1x1_S50000x1_0_1
        (broadcastInDim S1x1 ![1] Facts₀.bcast_S1_S1x1_1 b) (ix2 p 0) = vec b 0 := by
  rw [broadcastInDim_apply _ _ _ (ix2 p (0 : Fin 1)) (ix2 (0 : Fin 1) (0 : Fin 1))
      (fun a => by match a with | ⟨0, _⟩ => rfl | ⟨1, _⟩ => rfl),
    broadcastInDim_apply _ _ _ (ix2 (0 : Fin 1) (0 : Fin 1)) (ix1 (0 : Fin 1)) (fun a => by match a with | ⟨0, _⟩ => rfl)]
  rfl

/-! ## The entrywise operations -/

/-- The sum of two arrays, row by row. -/
theorem addR_rows (x y : FVec Ideal S50000x129 .f32) (p : Fin 50000) :
    rows (addf x y) p = fun k => rows x p k + rows y p k := rfl

/-- `max · 0` against the zero array is `relu` of each entry. -/
theorem reluR_rows (a : FVec Ideal S50000x128 .f32) (p : Fin 50000) :
    rows (reluR a) p = fun j => relu (rows a p j) := rfl

/-- The select between an entry and the slope times it, on the entry's comparison with zero, is `leaky` of it. -/
theorem leakyR_rows (a : FVec Ideal S50000x128 .f32) (p : Fin 50000) :
    rows (leakyR a) p = fun j => leaky (rows a p j) := rfl

/-- The host's `tanh` is the extended reals' `tanh` of each entry. -/
theorem tanhR_rows (a : FVec Ideal S50000x128 .f32) (p : Fin 50000) :
    rows (Host.tanh a) p = fun j => Ideal.tanh (rows a p j) := rfl

/-! ## The concatenation -/

/-- The hidden rows laid beside the node rows: column `k` of row `p` is the hidden row's entry `k` when `k < 128`
    and the node row's entry `k - 128` otherwise. -/
theorem catR_rows (h : FVec Ideal S50000x128 .f32) (xt : FVec Ideal S50000x129 .f32) (p : Fin 50000) :
    rows (concatenate S50000x257 1 [⟨S50000x128, h⟩, ⟨S50000x129, xt⟩]
        Facts₀.concatenates_S50000x128_S50000x129_S50000x257_d1) p = cat (rows h p) (rows xt p) := by
  funext k
  show concatenate S50000x257 1 [⟨S50000x128, h⟩, ⟨S50000x129, xt⟩] _ (ix2 p k) = _
  unfold cat
  by_cases hk : k.val < 128
  · rw [dif_pos hk]
    exact concatenate_pair_apply_left 1 h xt _ (ix2 p k) rfl (ix2 p ⟨k.val, hk⟩)
      (fun b => by match b with | ⟨0, _⟩ => rfl | ⟨1, _⟩ => rfl)
  · rw [dif_neg hk]
    exact concatenate_pair_apply_right 1 h xt _ (ix2 p k) rfl rfl (ix2 p ⟨k.val - 128, by have := k.isLt; omega⟩)
      (fun b hb => by
        match b, hb with
        | ⟨0, _⟩, _ => rfl
        | ⟨1, _⟩, hb => exact absurd rfl hb)
      (by show (k.val - 128) + 128 = k.val; omega)

/-! ## The dense layers -/

/-- 129 inputs to 128 outputs: the output row is `dense` of the input row. -/
theorem dense129_rows (l : FVec Ideal S50000x129 .f32) (W : FVec Ideal S129x128 .f32) (b : FVec Ideal S128 .f32)
    (p : Fin 50000) :
    rows (addf (Host.dotGeneral dot_S50000x129_S129x128_S50000x128_1_0_0_1_n_n none l W) (biasR b)) p
      = dense (rows W) (vec b) (rows l p) := by
  funext j
  show addf (Host.dotGeneral dot_S50000x129_S129x128_S50000x128_1_0_0_1_n_n none l W) (biasR b) (ix2 p j) = _
  rw [addf_apply, dot129_apply, biasR_apply]
  rfl

/-- 128 inputs to 128 outputs. -/
theorem dense128_rows (l : FVec Ideal S50000x128 .f32) (W : FVec Ideal S128x128 .f32) (b : FVec Ideal S128 .f32)
    (p : Fin 50000) :
    rows (addf (Host.dotGeneral dot_S50000x128_S128x128_S50000x128_1_0_0_1_n_n none l W) (biasR b)) p
      = dense (rows W) (vec b) (rows l p) := by
  funext j
  show addf (Host.dotGeneral dot_S50000x128_S128x128_S50000x128_1_0_0_1_n_n none l W) (biasR b) (ix2 p j) = _
  rw [addf_apply, dot128_apply, biasR_apply]
  rfl

/-- 257 inputs to 128 outputs. -/
theorem dense257_rows (l : FVec Ideal S50000x257 .f32) (W : FVec Ideal S257x128 .f32) (b : FVec Ideal S128 .f32)
    (p : Fin 50000) :
    rows (addf (Host.dotGeneral dot_S50000x257_S257x128_S50000x128_1_0_0_1_n_n none l W) (biasR b)) p
      = dense (rows W) (vec b) (rows l p) := by
  funext j
  show addf (Host.dotGeneral dot_S50000x257_S257x128_S50000x128_1_0_0_1_n_n none l W) (biasR b) (ix2 p j) = _
  rw [addf_apply, dot257_apply, biasR_apply]
  rfl

/-- 128 inputs to the one output, read at a node. -/
theorem dense128x1_apply (l : FVec Ideal S50000x128 .f32) (W : FVec Ideal S128x1 .f32) (b : FVec Ideal S1 .f32)
    (p : Fin 50000) :
    addf (Host.dotGeneral dot_S50000x128_S128x1_S50000x1_1_0_0_1_n_n none l W)
        (broadcastInDim S50000x1 ![0, 1] Facts₀.bcast_S1x1_S50000x1_0_1
          (broadcastInDim S1x1 ![1] Facts₀.bcast_S1_S1x1_1 b)) (ix2 p 0)
      = dense (rows W) (vec b) (rows l p) 0 := by
  rw [addf_apply, dot128x1_apply, bias1_apply]
  rfl

end Cert.ReferenceIdeal.Hand

end
-- ==== Proof.RefValue.lean ====
/-
  The reference's multi-layer perceptron read at one node.

  The reference's result at node `r` is the last dense layer applied to row `r` of its input array; that row is, layer
  by layer from the outside in, the entrywise rectifier of the previous dense layer's output row, down to the sum of
  row `r` of the node features and row `r` of the neighbour sums.  Nothing is rearranged: each step reads one
  operation row by row, and the composite is the per-node function `rowOut` of those two rows and the weights.
-/
import proofs.«175735_j17411797418333_1_alg».proof.Proof.Gen.ReferenceIdeal
import proofs.«175735_j17411797418333_1_alg».proof.Proof.RefTerm
import proofs.«175735_j17411797418333_1_alg».proof.Proof.GinSpec
import proofs.«175735_j17411797418333_1_alg».proof.Proof.RefLayers
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx Idealize.SL.Sem Cert.Gin

theorem mlpR_apply (xt agg : FVec Ideal S50000x129 .f32) (W1 : FVec Ideal S129x128 .f32) (b1 : FVec Ideal S128 .f32)
    (W2 : FVec Ideal S128x128 .f32) (b2 : FVec Ideal S128 .f32) (P1 : FVec Ideal S257x128 .f32) (pb1 : FVec Ideal S128 .f32)
    (P2 : FVec Ideal S128x128 .f32) (pb2 : FVec Ideal S128 .f32) (P3 : FVec Ideal S128x1 .f32) (pb3 : FVec Ideal S1 .f32)
    (r : Fin 50000) :
    mlpR xt agg W1 b1 W2 b2 P1 pb1 P2 pb2 P3 pb3 (ix2 r 0)
      = rowOut (rows xt r) (rows agg r) (rows W1) (vec b1) (rows W2) (vec b2) (rows P1) (vec pb1) (rows P2) (vec pb2)
          (rows P3) (vec pb3) := by
  unfold mlpR hidR rowOut
  -- the predictor: three dense layers, the first two through the leaky rectifier, on the 257-entry row
  rw [dense128x1_apply, leakyR_rows, dense128_rows, leakyR_rows, dense257_rows, catR_rows]
  -- the hidden row: two dense layers, through `max · 0`, then `tanh` and `max · 0`, on the summed row
  rw [reluR_rows, tanhR_rows, dense128_rows, reluR_rows, dense129_rows, addR_rows]

end Cert.ReferenceIdeal.Hand

end
-- ==== Proof.Bridge.lean ====
/-
  The two programs meet: the arrays the kernel region finds are the reference's own intermediate arrays.

  The node rows with the time appended and the neighbour sums are produced in both programs by the same host
  operations on the same arguments (equal as terms); a weight matrix reaches the region as launched; a bias vector
  reaches it reshaped to one row, and its row is the vector.  With these, the kernel's result array and the reference's
  multi-layer perceptron are the per-node function of the same rows at every node.
-/
import proofs.«175735_j17411797418333_1_alg».proof.Proof.KerHost
import proofs.«175735_j17411797418333_1_alg».proof.Proof.KerValue
import proofs.«175735_j17411797418333_1_alg».proof.Proof.RefTerm
import proofs.«175735_j17411797418333_1_alg».proof.Proof.RefValue
import proofs.«175735_j17411797418333_1_alg».proof.Proof.Gen.ReferenceIdeal

noncomputable section

open Idealize.ShloMosaic Idealize.ShloMosaic.TcCoe Idealize.SL.Sem Idealize.ShloMosaic.ValueIdx Cert.Gin

namespace Cert.Bridge

/-- The node rows with the time appended: one term in both programs. -/
theorem xt_eq (x : FVec Ideal Cert.KernelIdeal.S50000x128 .f32) (t : FVec Ideal Cert.KernelIdeal.S50000 .f32) :
    Cert.KernelIdeal.Hand.xtK x t = Cert.ReferenceIdeal.Hand.xtR x t := rfl

/-- The neighbour sums: one term in both programs. -/
theorem agg_eq (xt : FVec Ideal Cert.KernelIdeal.S50000x129 .f32) (ei : IVec Cert.KernelIdeal.S2x800000 32) :
    Cert.KernelIdeal.Hand.aggK xt ei = Cert.ReferenceIdeal.Hand.aggR xt ei := rfl

/-- A vector reshaped to a one-row matrix: the row is the vector. -/
theorem row0_reshape {n : Nat} (b : (⟨1, ![n]⟩ : Shape).Idx → EReal) (h : (⟨1, ![n]⟩ : Shape).ShapeCasts ⟨2, ![1, n]⟩) :
    row0 (shapeCast ⟨2, ![1, n]⟩ b h) = vec b := by
  funext j
  show shapeCast ⟨2, ![1, n]⟩ b h (ix2 0 j) = b (ix1 j)
  refine shapeCast_apply b h (ix2 0 j) (ix1 j) ?_
  rw [Shape.rowMajor_val_two, Shape.rowMajor_val_one]
  show j.val = 0 * n + j.val
  omega

/-- The two programs' first results: zeros. -/
theorem zero_eq : Cert.ReferenceIdeal.Hand.zeroOutR (F := Ideal) = Cert.KernelIdeal.Hand.zeroOutK := rfl

/-- THE KERNEL'S RESULT ARRAY IS THE REFERENCE'S: at every node both are the per-node function of the same rows. -/
theorem nodeOut_eq (m : (ℓ : Loc Cert.KernelIdeal.nD Cert.KernelIdeal.τ Cert.KernelIdeal.sig) → Buf (Elt Ideal) ℓ) (c : Dev Cert.KernelIdeal.nD) :
    Cert.KernelIdeal.Hand.nodeOut m c
      = Cert.ReferenceIdeal.Hand.mlpR (F := Ideal) (Cert.ReferenceIdeal.Hand.xtR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (Cert.ReferenceIdeal.Hand.aggR (F := Ideal) (Cert.ReferenceIdeal.Hand.xtR (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  funext i
  obtain ⟨r, q, rfl⟩ : ∃ (r : Fin 50000) (q : Fin 1), i = ix2 r q := ⟨i 0, i 1, eq_ix2 i⟩
  obtain rfl : q = 0 := Subsingleton.elim _ _
  refine Eq.trans ?_ (Cert.ReferenceIdeal.Hand.mlpR_apply _ _ _ _ _ _ _ _ _ _ _ _ r).symm
  show rowOut (rows (Cert.KernelIdeal.Hand.aXT m c) r) (rows (Cert.KernelIdeal.Hand.aAG m c) r) (rows (Cert.KernelIdeal.Hand.aW1 m c)) (row0 (Cert.KernelIdeal.Hand.aB1 m c))
      (rows (Cert.KernelIdeal.Hand.aW2 m c)) (row0 (Cert.KernelIdeal.Hand.aB2 m c)) (rows (Cert.KernelIdeal.Hand.aP1 m c)) (row0 (Cert.KernelIdeal.Hand.aQ1 m c))
      (rows (Cert.KernelIdeal.Hand.aP2 m c)) (row0 (Cert.KernelIdeal.Hand.aQ2 m c)) (rows (Cert.KernelIdeal.Hand.aP3 m c)) (row0 (Cert.KernelIdeal.Hand.aQ3 m c)) = _
  exact Cert.KernelIdeal.Hand.rowOut_congr
    (congrArg (fun z : Vec Ideal Cert.KernelIdeal.S50000x129 .f32 => rows z r) ((Cert.KernelIdeal.Hand.V_v1 m c).trans (xt_eq _ _)))
    (congrArg (fun z : Vec Ideal Cert.KernelIdeal.S50000x129 .f32 => rows z r)
      ((Cert.KernelIdeal.Hand.V_v15 m c).trans ((agg_eq _ _).trans (congrArg (fun z => Cert.ReferenceIdeal.Hand.aggR z _) (xt_eq _ _)))))
    (congrArg (fun z : Vec Ideal Cert.KernelIdeal.S129x128 .f32 => rows z) (Cert.KernelIdeal.Gen.V_main_arg4 m c))
    ((congrArg (fun z : Vec Ideal Cert.KernelIdeal.S1x128 .f32 => row0 z) (Cert.KernelIdeal.Hand.V_v16 m c)).trans (row0_reshape _ _))
    (congrArg (fun z : Vec Ideal Cert.KernelIdeal.S128x128 .f32 => rows z) (Cert.KernelIdeal.Gen.V_main_arg6 m c))
    ((congrArg (fun z : Vec Ideal Cert.KernelIdeal.S1x128 .f32 => row0 z) (Cert.KernelIdeal.Hand.V_v17 m c)).trans (row0_reshape _ _))
    (congrArg (fun z : Vec Ideal Cert.KernelIdeal.S257x128 .f32 => rows z) (Cert.KernelIdeal.Gen.V_main_arg8 m c))
    ((congrArg (fun z : Vec Ideal Cert.KernelIdeal.S1x128 .f32 => row0 z) (Cert.KernelIdeal.Hand.V_v18 m c)).trans (row0_reshape _ _))
    (congrArg (fun z : Vec Ideal Cert.KernelIdeal.S128x128 .f32 => rows z) (Cert.KernelIdeal.Gen.V_main_arg10 m c))
    ((congrArg (fun z : Vec Ideal Cert.KernelIdeal.S1x128 .f32 => row0 z) (Cert.KernelIdeal.Hand.V_v19 m c)).trans (row0_reshape _ _))
    (congrArg (fun z : Vec Ideal Cert.KernelIdeal.S128x1 .f32 => rows z) (Cert.KernelIdeal.Gen.V_main_arg12 m c))
    ((congrArg (fun z : Vec Ideal Cert.KernelIdeal.S1x1 .f32 => row0 z) (Cert.KernelIdeal.Hand.V_v20 m c)).trans (row0_reshape _ _))

end Cert.Bridge

end
-- ==== Proof.lean ====
/-
  The certificate: a graph network's per-node predictor, the kernel's program against the reference's.

  Both programs first build, by the same host operations, the node rows with the time appended and each node's sum of
  its in-neighbours' rows (a gather at the edges' sources scatter-added at the edges' destinations).  The reference then
  applies, to all 50000 rows at once, two dense layers (max with 0; tanh then max with 0), lays the result beside the node
  rows and applies three more dense layers, the first two followed by the leaky rectifier of slope f32(0.2).  The kernel
  does the same on 25 blocks of 2000 rows, its matrix products accumulated into zeros and its operands cast through
  bf16, which at the ideal instance is the identity.  A row of the result depends only on the same row of the two
  arrays, so block `t` of the kernel's result is rows `2000·t …` of the reference's: at every node both are ONE
  function of that node's two rows and of the weights (`Cert.Gin.rowOut`), the sums of each dense layer re-indexed to the
  layer's width and nothing else rearranged.  No law of the extended reals that needs finiteness is used, so the
  precondition is never opened.  The first result of both programs is zeros.

  The frames of the two kernel programs are the imported ones (every weakly fair execution terminates, nothing faults,
  the arguments end unchanged); the reference's frame is its run with the results dropped; the idealization rewrote
  nothing, so there is nothing to preserve.
-/
import proofs.«175735_j17411797418333_1_alg».proof.Defs
import proofs.«175735_j17411797418333_1_alg».proof.Proof.Gen.Kernel
import proofs.«175735_j17411797418333_1_alg».proof.Proof.Gen.Kernel.Skeleton
import proofs.«175735_j17411797418333_1_alg».proof.Proof.Gen.Kernel.Launch
import proofs.«175735_j17411797418333_1_alg».proof.Proof.Gen.Kernel.Points
import proofs.«175735_j17411797418333_1_alg».proof.Proof.Gen.Kernel.Frame
import proofs.«175735_j17411797418333_1_alg».proof.Proof.Gen.KernelIdeal
import proofs.«175735_j17411797418333_1_alg».proof.Proof.Gen.KernelIdeal.Skeleton
import proofs.«175735_j17411797418333_1_alg».proof.Proof.Gen.KernelIdeal.Launch
import proofs.«175735_j17411797418333_1_alg».proof.Proof.Gen.KernelIdeal.Points
import proofs.«175735_j17411797418333_1_alg».proof.Proof.Gen.KernelIdeal.Frame
import proofs.«175735_j17411797418333_1_alg».proof.Proof.Gen.ReferenceIdeal
import proofs.«175735_j17411797418333_1_alg».proof.Proof.Gen.Pre_finite_inputs
import proofs.«175735_j17411797418333_1_alg».proof.Proof.KerValue
import proofs.«175735_j17411797418333_1_alg».proof.Proof.RefRun
import proofs.«175735_j17411797418333_1_alg».proof.Proof.Bridge
import Idealize.ShloMosaic.Adequacy
import Idealize.ShloMosaic.Init

noncomputable section

namespace Cert.Proof

open Idealize.ShloMosaic Idealize.SL.Sem

/-- The kernel program terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference terminates without a fault and keeps its arguments: its run with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- From memories agreeing on the arguments both programs end with zeros as their first result and, as their second,
    the per-node function of the same rows at every node. -/
theorem algebraic : Cert.algebraic_KernelIdeal_ReferenceIdeal := by
  intro m ρ m' ρ' _ hagree
  refine ⟨fun _ => Cert.KernelIdeal.Hand.zeroOutK, fun c => Cert.KernelIdeal.Hand.nodeOut m c,
    Cert.KernelIdeal.Hand.run m ρ, ?_⟩
  refine (θ_run Cert.ReferenceIdeal.defs _ _).mono (fun r h c => ?_) (Cert.ReferenceIdeal.Hand.run (F := Ideal) m' ρ')
  obtain ⟨h43, h42, hargs⟩ := h c
  obtain ⟨a0, a1, a2, a3, a4, a5, a6, a7, a8, a9, a10, a11, a12, a13⟩ := hagree c
  refine ⟨h43.trans Cert.Bridge.zero_eq, h42.trans ?_, hargs⟩
  rw [a0, a1, a3, a4, a5, a6, a7, a8, a9, a10, a11, a12, a13]
  exact (Cert.Bridge.nodeOut_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
